-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S64x2048 : Shape := ⟨2, ![64, 2048]⟩
abbrev S64 : Shape := ⟨1, ![64]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x2048 .f32) (main_arg8 : FVec F S64 .f32) (main_v33 : IVec S_ 1) : IVec S_ 1 :=
  let main_v34 : FVec F S64x2048 .f32 := Host.absf main_arg7
  let main_cst_12 : FVec F S_ .f32 := constant S_ .f32 0x7F800000#32
  let main_v35 : FVec F S64x2048 .f32 := broadcastInDim S64x2048 ![] bcast_S_S64x2048 main_cst_12
  let main_v36 : IVec S64x2048 1 := cmpf .olt main_v34 main_v35
  let main_c_13 : IVec S_ 1 := constantI S_ 1 1#1
  let main_v37 : IVec S_ 1 := (fun x v => Host.reduce IntOp.andi x v reducesTo_S64x2048_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x2048 .f32) (main_arg6 : FVec F S64 .f32) (main_arg7 : FVec F S64x2048 .f32) (main_arg8 : FVec F S64 .f32) (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2048 .f32 := Host.absf main_arg5
  let main_cst_8 : FVec F S_ .f32 := constant S_ .f32 0x7F800000#32
  let main_v25 : FVec F S64x2048 .f32 := broadcastInDim S64x2048 ![] bcast_S_S64x2048 main_cst_8
  let main_v26 : IVec S64x2048 1 := cmpf .olt main_v24 main_v25
  let main_c_9 : IVec S_ 1 := constantI S_ 1 1#1
  let main_v27 : IVec S_ 1 := (fun x v => Host.reduce IntOp.andi x v reducesTo_S64x2048_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S4x4096x2048 .f32) (main_arg1 : FVec F S4x4096x2048 .f32) (main_arg2 : FVec F S4x4096x2048 .f32) (main_arg3 : FVec F S64x2048 .f32) (main_arg4 : FVec F S64 .f32) (main_arg5 : FVec F S64x2048 .f32) (main_arg6 : FVec F S64 .f32) (main_arg7 : FVec F S64x2048 .f32) (main_arg8 : FVec F S64 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x4096x2048 .f32 := Host.absf main_arg1
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  let main_v9 : FVec F S4x4096x2048 .f32 := Host.absf main_arg2
  let main_cst_2 : FVec F S_ .f32 := constant S_ .f32 0x7F800000#32
  let main_v10 : FVec F S4x4096x2048 .f32 := broadcastInDim S4x4096x2048 ![] bcast_S_S4x4096x2048 main_cst_2
  let main_v11 : IVec S4x4096x2048 1 := cmpf .olt main_v9 main_v10
  let main_c_3 : IVec S_ 1 := constantI S_ 1 1#1
  let main_v12 : IVec S_ 1 := (fun x v => Host.reduce IntOp.andi x v reducesTo_S4x4096x2048_S_d0_1_2 h_S_) main_v11 main_c_3
  let main_v13 : IVec S_ 1 := andi main_v8 main_v12
  let main_v14 : FVec F S64x2048 .f32 := Host.absf main_arg3
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_arg4 main_arg5 main_arg6 main_arg7 main_arg8 main_v13 main_v16
-- ==== Kernel.lean ====
abbrev S4x4096x2048 : Shape := ⟨3, ![4, 4096, 2048]⟩
abbrev S64x2048 : Shape := ⟨2, ![64, 2048]⟩
abbrev S64 : Shape := ⟨1, ![64]⟩
abbrev S1x64 : Shape := ⟨2, ![1, 64]⟩
abbrev S4x4096x64 : Shape := ⟨3, ![4, 4096, 64]⟩
abbrev S4x64x4096 : Shape := ⟨3, ![4, 64, 4096]⟩
abbrev S1x512x2048 : Shape := ⟨3, ![1, 512, 2048]⟩
abbrev S1x512x64 : Shape := ⟨3, ![1, 512, 64]⟩
abbrev S1x64x512 : Shape := ⟨3, ![1, 64, 512]⟩
abbrev S512x2048 : Shape := ⟨2, ![512, 2048]⟩
abbrev S512x64 : Shape := ⟨2, ![512, 64]⟩
abbrev S64x512 : Shape := ⟨2, ![64, 512]⟩
abbrev S1x1024x64 : Shape := ⟨3, ![1, 1024, 64]⟩
abbrev S1x64x4096 : Shape := ⟨3, ![1, 64, 4096]⟩
abbrev S1x4096x64 : Shape := ⟨3, ![1, 4096, 64]⟩
abbrev S1024x64 : Shape := ⟨2, ![1024, 64]⟩
abbrev S64x4096 : Shape := ⟨2, ![64, 4096]⟩
abbrev S4096x64 : Shape := ⟨2, ![4096, 64]⟩
abbrev S1024x4096 : Shape := ⟨2, ![1024, 4096]⟩
abbrev S1024 : Shape := ⟨1, ![1024]⟩
abbrev S1024x1 : Shape := ⟨2, ![1024, 1]⟩

abbrev nBuf : Space → Nat
  | .hbm => 16
  | .vmem => 26
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S64x2048, .f32⟩
  | .hbm, ⟨4, _⟩ => ⟨S64, .f32⟩
  | .hbm, ⟨5, _⟩ => ⟨S64x2048, .f32⟩
  | .hbm, ⟨6, _⟩ => ⟨S64, .f32⟩
  | .hbm, ⟨7, _⟩ => ⟨S64x2048, .f32⟩
  | .hbm, ⟨8, _⟩ => ⟨S64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S4x4096x64, .bf16⟩
  | .hbm, ⟨13, _⟩ => ⟨S4x64x4096, .bf16⟩
  | .hbm, ⟨14, _⟩ => ⟨S4x4096x64, .f32⟩
  | .hbm, ⟨15, _⟩ => ⟨S4x4096x64, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S64x2048, .f32⟩
  | .local _ .vmem, ⟨7, _⟩ => ⟨S1x64, .f32⟩
  | .local _ .vmem, ⟨8, _⟩ => ⟨S64x2048, .f32⟩
  | .local _ .vmem, ⟨9, _⟩ => ⟨S1x64, .f32⟩
  | .local _ .vmem, ⟨10, _⟩ => ⟨S64x2048, .f32⟩
  | .local _ .vmem, ⟨11, _⟩ => ⟨S1x64, .f32⟩
  | .local _ .vmem, ⟨12, _⟩ => ⟨S1x512x64, .bf16⟩
  | .local _ .vmem, ⟨13, _⟩ => ⟨S1x512x64, .bf16⟩
  | .local _ .vmem, ⟨14, _⟩ => ⟨S1x64x512, .bf16⟩
  | .local _ .vmem, ⟨15, _⟩ => ⟨S1x64x512, .bf16⟩
  | .local _ .vmem, ⟨16, _⟩ => ⟨S1x512x64, .f32⟩
  | .local _ .vmem, ⟨17, _⟩ => ⟨S1x512x64, .f32⟩
  | .local _ .vmem, ⟨18, _⟩ => ⟨S1x1024x64, .bf16⟩
  | .local _ .vmem, ⟨19, _⟩ => ⟨S1x1024x64, .bf16⟩
  | .local _ .vmem, ⟨20, _⟩ => ⟨S1x64x4096, .bf16⟩
  | .local _ .vmem, ⟨21, _⟩ => ⟨S1x64x4096, .bf16⟩
  | .local _ .vmem, ⟨22, _⟩ => ⟨S1x4096x64, .f32⟩
  | .local _ .vmem, ⟨23, _⟩ => ⟨S1x4096x64, .f32⟩
  | .local _ .vmem, ⟨24, _⟩ => ⟨S1x1024x64, .f32⟩
  | .local _ .vmem, ⟨25, _⟩ => ⟨S1x1024x64, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S64_S1x64 : S64.ShapeCasts S1x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  transposes_S512x64_p1_0_S64x512 : S512x64.Transposes [1, 0] S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  packedbf16_S1x64x512_S1x64x512_0_0_0 : (Rect.unit (s := S1x64x512) ![0, 0, 0] S1x64x512.size inb_S1x64x512_S1x64x512_0_0_0).PackedRows (EltTy.packing .bf16)
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S1024x4096_S1024 : S1024x4096.Reduces [1] S1024
  shapeCasts_S1024_S1024x1 : S1024.ShapeCasts S1024x1
  broadcasts_S1024x1_S1024x4096 : S1024x1.Broadcasts S1024x4096
  broadcasts_S1024x1_S1024x64 : S1024x1.Broadcasts S1024x64
  shapeCasts_S1024x64_S1x1024x64 : S1024x64.ShapeCasts S1x1024x64
  dot_S512x2048_S64x2048_S512x64_1_1_0_0_n_n_wf : DotDims.WF S512x2048 S64x2048 S512x64 [1] [1] [0] [0] [] []
  dot_S1024x64_S64x4096_S1024x4096_1_0_0_1_n_n_wf : DotDims.WF S1024x64 S64x4096 S1024x4096 [1] [0] [0] [1] [] []
  dot_S1024x4096_S4096x64_S1024x64_1_0_0_1_n_n_wf : DotDims.WF S1024x4096 S4096x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S4x4096x2048.size a
  hwx0_1 : ∀ i : grid0.Coords, EltTy.bits .f32 = 32 ∨ (Rect.block (s := S4x4096x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S4x4096x2048.size a
  hwx0_2 : ∀ i : grid0.Coords, EltTy.bits .f32 = 32 ∨ (Rect.block (s := S4x4096x2048) S1x512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x2048.size a
  hwx0_3 : ∀ i : grid0.Coords, EltTy.bits .f32 = 32 ∨ (Rect.block (s := S64x2048) S64x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S64x2048.size a
  hwx0_5 : ∀ i : grid0.Coords, EltTy.bits .f32 = 32 ∨ (Rect.block (s := S64x2048) S64x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x2048.size a ≤ S64x2048.size a
  hwx0_7 : ∀ i : grid0.Coords, EltTy.bits .f32 = 32 ∨ (Rect.block (s := S64x2048) S64x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x64.size a ≤ S4x4096x64.size a
  hwx0_9 : ∀ i : grid0.Coords, EltTy.bits .bf16 = 32 ∨ (Rect.block (s := S4x4096x64) S1x512x64.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x512.size a ≤ S4x64x4096.size a
  hwx0_10 : ∀ i : grid0.Coords, EltTy.bits .bf16 = 32 ∨ (Rect.block (s := S4x64x4096) S1x64x512.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x64.size a ≤ S4x4096x64.size a
  hwx0_11 : ∀ i : grid0.Coords, EltTy.bits .f32 = 32 ∨ (Rect.block (s := S4x4096x64) S1x512x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .bf16 = 32 ∨ (Rect.block (s := S4x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x4096.size a ≤ S4x64x4096.size a
  hwx1_1 : ∀ i : grid1.Coords, EltTy.bits .bf16 = 32 ∨ (Rect.block (s := S4x64x4096) S1x64x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S4x4096x64.size a
  hwx1_2 : ∀ i : grid1.Coords, EltTy.bits .f32 = 32 ∨ (Rect.block (s := S4x4096x64) S1x4096x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x4096x64.size a
  hwx1_3 : ∀ i : grid1.Coords, EltTy.bits .f32 = 32 ∨ (Rect.block (s := S4x4096x64) S1x1024x64.size (cc1_transform_3 i) (hinb1_3 i)).WholeWords (EltTy.packing .f32)

variable [Facts₀]

def dot_S512x2048_S64x2048_S512x64_1_1_0_0_n_n : DotDims S512x2048 S64x2048 S512x64 where
  lhsContracting := [1]
  rhsContracting := [1]
  lhsNonContracting := [0]
  rhsNonContracting := [0]
  lhsBatch := []
  rhsBatch := []
  wf := dot_S512x2048_S64x2048_S512x64_1_1_0_0_n_n_wf
def dot_S1024x64_S64x4096_S1024x4096_1_0_0_1_n_n : DotDims S1024x64 S64x4096 S1024x4096 where
  lhsContracting := [1]
  rhsContracting := [0]
  lhsNonContracting := [0]
  rhsNonContracting := [1]
  lhsBatch := []
  rhsBatch := []
  wf := dot_S1024x64_S64x4096_S1024x4096_1_0_0_1_n_n_wf
def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf

abbrev win0_0 : Pipeline.Window sig grid0 :=
  Pipeline.Window.ofSpec (Memref.whole main_arg1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3_0) S1x512x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_1) S1x64x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_2) S1x512x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v3_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x64x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x2048 : Shape := ⟨3, ![4, 4096, 2048]⟩
abbrev S64x2048 : Shape := ⟨2, ![64, 2048]⟩
abbrev S64 : Shape := ⟨1, ![64]⟩
abbrev S4x4096x64 : Shape := ⟨3, ![4, 4096, 64]⟩
abbrev S1x1x64 : Shape := ⟨3, ![1, 1, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S64x2048, .f32⟩
  | .hbm, ⟨4, _⟩ => ⟨S64, .f32⟩
  | .hbm, ⟨5, _⟩ => ⟨S64x2048, .f32⟩
  | .hbm, ⟨6, _⟩ => ⟨S64, .f32⟩
  | .hbm, ⟨7, _⟩ => ⟨S64x2048, .f32⟩
  | .hbm, ⟨8, _⟩ => ⟨S64, .f32⟩
  | .hbm, ⟨9, _⟩ => ⟨S4x4096x64, .f32⟩
  | .hbm, ⟨10, _⟩ => ⟨S1x1x64, .f32⟩
  | .hbm, ⟨11, _⟩ => ⟨S4x4096x64, .f32⟩
  | .hbm, ⟨12, _⟩ => ⟨S4x4096x64, .f32⟩
  | .hbm, ⟨13, _⟩ => ⟨S4x4096x64, .f32⟩
  | .hbm, ⟨14, _⟩ => ⟨S1x1x64, .f32⟩
  | .hbm, ⟨15, _⟩ => ⟨S4x4096x64, .f32⟩
  | .hbm, ⟨16, _⟩ => ⟨S4x4096x64, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S4x4096x1, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S4x4096x64, .f32⟩
  | .hbm, ⟨36, _⟩ => ⟨S1x1x64, .f32⟩
  | .hbm, ⟨37, _⟩ => ⟨S4x4096x64, .f32⟩
  | .hbm, ⟨38, _⟩ => ⟨S4x4096x64, .f32⟩
  | .hbm, ⟨39, _⟩ => ⟨S4x4096x64, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x2048_S64x2048_S4x4096x64_2_1_01_0_n_n_wf : DotDims.WF S4x4096x2048 S64x2048 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x2048_S64x2048_S4x4096x64_2_1_01_0_n_n : DotDims S4x4096x2048 S64x2048 S4x4096x64 where
  lhsContracting := [2]
  rhsContracting := [1]
  lhsNonContracting := [0, 1]
  rhsNonContracting := [0]
  lhsBatch := []
  rhsBatch := []
  wf := dot_S4x4096x2048_S64x2048_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.Spec.lean ====
/-
  The specification both programs are compared against, over the extended reals.

  A *head* is an array indexed by (batch, position, feature): `Head = Fin 4 → Fin 4096 → Fin 64 → EReal`.
  `proj X W β` is the linear head of a `[4, 4096, 2048]` activation `X` against the rows of a `[64, 2048]` weight
  `W`, plus a bias: at (b, s, d) the sum over the 2048 model features of `X[b, s, ·] · W[d, ·]`, plus `β d`.
  From three heads (queries, keys, values) attention is, per batch `b` and query position `s`:
    the logits      `logit b s t  = (∑ d, qh b s d · kh b t d) · scale`   (one per key position `t`),
    their maximum   `rowMax b s   = max over t`, folded from the word of −∞,
    the weights     `weight b s t = exp (logit b s t − rowMax b s)`,
  and then one of two arrangements of the same quotient:
    `attnLate`:  (∑ t, weight t · vh b t d) / (∑ t, weight t)      — divide once, after the weighted sum;
    `attnEarly`: ∑ t, (weight t / ∑ t', weight t') · vh b t d      — divide every weight first.
  On real-valued heads the two agree (the sum of weights is a positive real, and division by it distributes over
  the finite sum); that law is proved in another module. `scale` is a float word that is never evaluated: all that
  is ever used of it is that it denotes a real number.
-/
import Idealize.ShloMosaic.PureOps.Ideal
import Idealize.ShloMosaic.Lib.ValueIdx

noncomputable section

open scoped BigOperators

namespace Cert.Attn

open Idealize.ShloMosaic Idealize.ShloMosaic.ValueIdx

/-- An extended real that is an ordinary real number. -/
def IsReal (x : EReal) : Prop := ∃ r : ℝ, x = (r : EReal)

/-- The factor on the logits: the single-precision word both programs carry (0.176776692…, the rounding of
    32^(-1/2)). It is the same word on both sides, so its value is never needed. -/
def scale : EReal := Ideal.ofBits .f32 0x3E3504F3#32

/-- The value a row maximum is folded from: the single-precision word of −∞. -/
def negInf : EReal := Ideal.ofBits .f32 0xFF800000#32

/-- An array indexed by (batch, position, feature). -/
abbrev Head := Fin 4 → Fin 4096 → Fin 64 → EReal

/-- The linear head: row (b, s) of the activation against row `d` of the weight, plus the bias at `d`. -/
def proj (X : (⟨3, ![4, 4096, 2048]⟩ : Shape).Idx → EReal) (W : (⟨2, ![64, 2048]⟩ : Shape).Idx → EReal)
    (β : Fin 64 → EReal) : Head :=
  fun b s d => (∑ k : Fin 2048, X (ix3 b s k) * W (ix2 d k)) + β d

/-- The scaled inner product of query row (b, s) with key row (b, t). -/
def logit (qh kh : Head) (b : Fin 4) (s t : Fin 4096) : EReal :=
  (∑ d : Fin 64, qh b s d * kh b t d) * scale

/-- The largest logit of query row (b, s), folded from −∞ over the key positions. -/
def rowMax (qh kh : Head) (b : Fin 4) (s : Fin 4096) : EReal :=
  (Finset.univ : Finset (Fin 4096)).fold max negInf (fun t => logit qh kh b s t)

/-- The unnormalised softmax weight of key position `t` for query row (b, s). -/
def weight (qh kh : Head) (b : Fin 4) (s t : Fin 4096) : EReal :=
  Ideal.exp (logit qh kh b s t - rowMax qh kh b s)

/-- Attention with the normalisation applied once, after the weighted sum of the values. -/
def attnLate (qh kh vh : Head) : Head :=
  fun b s d => Ideal.div (∑ t : Fin 4096, weight qh kh b s t * vh b t d) (∑ t : Fin 4096, weight qh kh b s t)

/-- Attention with every weight normalised before the weighted sum of the values. -/
def attnEarly (qh kh vh : Head) : Head :=
  fun b s d => ∑ t : Fin 4096, Ideal.div (weight qh kh b s t) (∑ t' : Fin 4096, weight qh kh b s t') * vh b t d

end Cert.Attn

end
-- ==== Proof.Law.lean ====
/-
  Extended-real facts behind the comparison of the two arrangements of attention.

  Four results. The factor on the logits is the word of a normal single-precision number (its exponent field is
  neither all zeros nor all ones), so it denotes a real. The word a row maximum is folded from has an all-ones
  exponent, a zero fraction and the sign set: it denotes ⊥. A linear head of real activations against real
  weights, plus a real bias, is real: reals are closed under finite sums and products inside the extended reals.
  And the law: on real-valued heads, dividing the weighted sum of the values by the sum of the weights equals
  weighting the values by the already divided weights. The reason is that every logit is real, hence the row
  maximum (a maximum over a nonempty finite set of reals) is real, hence every weight is the exponential of a
  real, a positive real; the sum of the weights is a positive real, division by it is multiplication by its real
  reciprocal, and that multiplication distributes over a finite sum of reals.
-/
import proofs.«420514_j49864570307212_3_alg».proof.Proof.Spec
import Mathlib.Data.EReal.Basic
import Mathlib.Data.EReal.Operations
import Mathlib.Data.EReal.Inv
import Mathlib.Data.Finset.Fold
import Mathlib.Algebra.BigOperators.Ring.Finset
import Mathlib.Algebra.Order.BigOperators.Group.Finset
import Mathlib.Analysis.SpecialFunctions.Exp

noncomputable section

open scoped BigOperators

namespace Cert.Attn

open Idealize.ShloMosaic Idealize.ShloMosaic.ValueIdx

/-! ### Reals inside the extended reals are closed under the ring operations and finite sums -/

theorem IsReal.coe (r : ℝ) : IsReal (r : EReal) := ⟨r, rfl⟩

theorem IsReal.add {x y : EReal} (hx : IsReal x) (hy : IsReal y) : IsReal (x + y) := by
  obtain ⟨a, rfl⟩ := hx
  obtain ⟨c, rfl⟩ := hy
  exact ⟨a + c, (EReal.coe_add a c).symm⟩

theorem IsReal.mul {x y : EReal} (hx : IsReal x) (hy : IsReal y) : IsReal (x * y) := by
  obtain ⟨a, rfl⟩ := hx
  obtain ⟨c, rfl⟩ := hy
  exact ⟨a * c, (EReal.coe_mul a c).symm⟩

theorem IsReal.sub {x y : EReal} (hx : IsReal x) (hy : IsReal y) : IsReal (x - y) := by
  obtain ⟨a, rfl⟩ := hx
  obtain ⟨c, rfl⟩ := hy
  exact ⟨a - c, (EReal.coe_sub a c).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-! ### The maximum of a nonempty finite family of reals, folded from ⊥, is real -/

theorem isReal_max {x y : EReal} (hx : IsReal x) (hy : IsReal y) : IsReal (max x y) := by
  rcases max_choice x y with h | h <;> rw [h] <;> assumption

/-- Folded from ⊥, a maximum of reals is ⊥ (nothing was folded) or real. -/
theorem fold_max_bot_or_isReal {ι : Type*} (s : Finset ι) (f : ι → EReal) (h : ∀ i ∈ s, IsReal (f i)) :
    s.fold max ⊥ f = ⊥ ∨ IsReal (s.fold max ⊥ f) := by
  classical
  induction s using Finset.induction_on with
  | empty => left; simp
  | insert a s ha ih =>
    right
    rw [Finset.fold_insert ha]
    rcases ih (fun i hi => h i (Finset.mem_insert_of_mem hi)) with hb | hr
    · rw [hb, max_bot_right]; exact h a (Finset.mem_insert_self a s)
    · exact isReal_max (h a (Finset.mem_insert_self a s)) hr

theorem isReal_fold_max {ι : Type*} (s : Finset ι) (hs : s.Nonempty) (f : ι → EReal) (h : ∀ i ∈ s, IsReal (f i)) :
    IsReal (s.fold max ⊥ f) := by
  rcases fold_max_bot_or_isReal s f h with hb | hr
  · exfalso
    obtain ⟨a, ha⟩ := hs
    obtain ⟨r, hr⟩ := h a ha
    have hle : f a ≤ s.fold max ⊥ f := (Finset.le_fold_max (f a)).mpr (Or.inr ⟨a, ha, le_rfl⟩)
    rw [hb, hr] at hle
    exact EReal.coe_ne_bot r (le_bot_iff.mp hle)
  · exact hr

/-! ### The two float words -/

/-- A pattern whose exponent field is not all ones, read as an IEEE number, is a real. -/
theorem ieee_isReal (e m : Nat) {w : Nat} (b : BitVec w) (h : (b.extractLsb' m e).toNat ≠ 2 ^ e - 1) :
    IsReal (Ideal.ieee e m b) := by
  unfold Ideal.ieee
  simp only [if_neg h]
  split_ifs <;> exact ⟨_, rfl⟩

theorem scale_isReal : IsReal scale := by
  show IsReal (Ideal.ieee 8 23 (0x3E3504F3#32 : BitVec 32))
  exact ieee_isReal 8 23 _ (by decide)

theorem negInf_eq_bot : negInf = ⊥ := by
  unfold negInf Ideal.ofBits Ideal.ieee
  have h1 : ((0xFF800000#32 : BitVec 32).extractLsb' 23 8).toNat = 2 ^ 8 - 1 := by decide
  have h2 : ((0xFF800000#32 : BitVec 32).extractLsb' 0 23).toNat = 0 := by decide
  have h3 : ((0xFF800000#32 : BitVec 32).extractLsb' (8 + 23) 1 == 1#1) = true := by decide
  simp only [h1, h2, h3, if_true]

/-! ### The linear head -/

theorem proj_isReal (X : (⟨3, ![4, 4096, 2048]⟩ : Shape).Idx → EReal) (W : (⟨2, ![64, 2048]⟩ : Shape).Idx → EReal)
    (β : Fin 64 → EReal) (hX : ∀ i, IsReal (X i)) (hW : ∀ i, IsReal (W i)) (hβ : ∀ e, IsReal (β e))
    (b : Fin 4) (s : Fin 4096) (d : Fin 64) : IsReal (proj X W β b s d) := by
  unfold proj
  exact (IsReal.sum _ _ fun k _ => (hX _).mul (hW _)).add (hβ d)

/-! ### The logits, their maximum and the weights of a row of real-valued heads -/

theorem logit_isReal (qh kh : Head) (hq : ∀ b s d, IsReal (qh b s d)) (hk : ∀ b s d, IsReal (kh b s d))
    (b : Fin 4) (s t : Fin 4096) : IsReal (logit qh kh b s t) := by
  unfold logit
  exact (IsReal.sum _ _ fun d _ => (hq b s d).mul (hk b t d)).mul scale_isReal

theorem rowMax_isReal (qh kh : Head) (hq : ∀ b s d, IsReal (qh b s d)) (hk : ∀ b s d, IsReal (kh b s d))
    (b : Fin 4) (s : Fin 4096) : IsReal (rowMax qh kh b s) := by
  unfold rowMax
  rw [negInf_eq_bot]
  exact isReal_fold_max _ Finset.univ_nonempty _ fun t _ => logit_isReal qh kh hq hk b s t

/-- Every weight is a positive real. -/
theorem weight_pos_real (qh kh : Head) (hq : ∀ b s d, IsReal (qh b s d)) (hk : ∀ b s d, IsReal (kh b s d))
    (b : Fin 4) (s t : Fin 4096) : ∃ r : ℝ, 0 < r ∧ weight qh kh b s t = (r : EReal) := by
  obtain ⟨x, hx⟩ := (logit_isReal qh kh hq hk b s t).sub (rowMax_isReal qh kh hq hk b s)
  exact ⟨Real.exp x, Real.exp_pos x, by unfold weight; rw [hx, Ideal.exp_coe]⟩

/-! ### The law over an arbitrary finite index -/

/-- With real weights of nonzero sum and real values, dividing the weighted sum by the sum of the weights equals
    summing the values against the divided weights. -/
theorem div_sum_eq_sum_div {ι : Type*} [Fintype ι] (w v : ι → ℝ) (hL : (∑ t, w t) ≠ 0) :
    Ideal.div (∑ t, (w t : EReal) * (v t : EReal)) (∑ t, (w t : EReal))
      = ∑ t, Ideal.div (w t : EReal) (∑ t', (w t' : EReal)) * (v t : EReal) := by
  rw [← coe_finset_sum Finset.univ w]
  simp only [Ideal.div_coe hL, ← EReal.coe_mul]
  rw [← coe_finset_sum, ← coe_finset_sum, ← EReal.coe_mul, Finset.sum_mul]
  congr 1
  exact Finset.sum_congr rfl fun t _ => by ring

theorem attnLate_eq_attnEarly (qh kh vh : Head) (hq : ∀ b s d, IsReal (qh b s d)) (hk : ∀ b s d, IsReal (kh b s d))
    (hv : ∀ b s d, IsReal (vh b s d)) : attnLate qh kh vh = attnEarly qh kh vh := by
  funext b s d
  unfold attnLate attnEarly
  choose wr hpos hwr using weight_pos_real qh kh hq hk b s
  have hv' : ∀ t, ∃ r : ℝ, vh b t d = (r : EReal) := fun t => hv b t d
  choose vr hvr using hv'
  simp only [hwr, hvr]
  exact div_sum_eq_sum_div wr vr (Finset.sum_pos (fun t _ => hpos t) Finset.univ_nonempty).ne'

end Cert.Attn

end
-- ==== Proof.Finite.lean ====
/-
  Finite inputs are real inputs.

  The precondition asks, of each of the nine argument arrays, that every entry `x` satisfies `|x| < +∞`, and it
  takes the conjunction of all these tests: per array a fold by `and` over every index, started from `true`, and
  then the `and` of the nine folds. Over the extended reals `|x|` is `max x (-x)`, the word `0x7F800000` denotes
  `⊤`, and `max x (-x) < ⊤` fails exactly at `x = ⊥` and `x = ⊤`. So when the precondition holds, every entry of
  every argument array is (the coercion of) a real number. The step from one fold to its entries is stated once,
  for an arbitrary shape reduced over all of its axes, and used nine times.
-/
import proofs.«420514_j49864570307212_3_alg».proof.Pre_finite_inputs
import proofs.«420514_j49864570307212_3_alg».proof.Proof.Spec
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx

/-- The single-precision word `0x7F800000` denotes `+∞`. -/
theorem inf_word : Ideal.ofBits .f32 0x7F800000#32 = (⊤ : EReal) := by
  simp [Ideal.ofBits, Ideal.ieee]

/-- An extended real whose absolute value `max x (-x)` is strictly below `⊤` is a real number: at `⊥` and at `⊤`
    the absolute value is `⊤`, so the strict comparison answers 0 there. -/
theorem isReal_of_abs_lt_top (x : EReal) (h : Ideal.cmp .olt (max x (-x)) (⊤ : EReal) = 1#1) :
    Cert.Attn.IsReal x := by
  induction x using EReal.rec with
  | bot => simp [Ideal.cmp] at h
  | coe r => exact ⟨r, rfl⟩
  | top => simp [Ideal.cmp] at h

/-- One conjunct of the precondition, over any shape `s` reduced on all its axes to the shape with one index: if the
    fold by `and` of the tests `|x i| < +∞` (the bound broadcast from a scalar) comes out 1, every `x i` is real. -/
theorem all_real {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
          (cmpf .olt (Host.absf x) (broadcastInDim s ![] hb (constant (F := Ideal) S_ .f32 0x7F800000#32)))
          (constantI S_ 1 1#1) hr hu ix0 = 1#1) :
    ∀ i, Cert.Attn.IsReal (x i) := by
  intro i
  -- the result shape has rank 0, hence a single index, so the fold ranges over every index of `s`
  haveI : Subsingleton S_.Idx := ⟨fun a b => funext fun d => d.elim0⟩
  have hi := Host.reduce_andi_all _ _ hr hu ix0 e i
  apply isReal_of_abs_lt_top
  rw [← inf_word]
  exact hi

variable [Cert.Pre_finite_inputs.Facts]

theorem real_of_finite_inputs (a0 a1 a2 : FVec Ideal S4x4096x2048 .f32) (a3 : FVec Ideal S64x2048 .f32)
    (a4 : FVec Ideal S64 .f32) (a5 : FVec Ideal S64x2048 .f32) (a6 : FVec Ideal S64 .f32)
    (a7 : FVec Ideal S64x2048 .f32) (a8 : FVec Ideal S64 .f32)
    (h : Cert.Pre_finite_inputs.fn (F := Ideal) a0 a1 a2 a3 a4 a5 a6 a7 a8 = fun _ => 1#1) :
    (∀ i, Cert.Attn.IsReal (a0 i)) ∧ (∀ i, Cert.Attn.IsReal (a1 i)) ∧ (∀ i, Cert.Attn.IsReal (a2 i))
    ∧ (∀ i, Cert.Attn.IsReal (a3 i)) ∧ (∀ i, Cert.Attn.IsReal (a4 i)) ∧ (∀ i, Cert.Attn.IsReal (a5 i))
    ∧ (∀ i, Cert.Attn.IsReal (a6 i)) ∧ (∀ i, Cert.Attn.IsReal (a7 i)) ∧ (∀ i, Cert.Attn.IsReal (a8 i)) := by
  -- the result has one index; read the printed chain at it: eight `and`s of nine folds
  have e := congrFun h ix0
  dsimp only [fn, fn_part1, fn_part2, Idealize.ShloMosaic.andi] at e
  -- an `and` of two one-bit words is 1 exactly when both are
  simp only [IntOp.andi_eq_one] at e
  obtain ⟨⟨⟨⟨⟨⟨⟨⟨e0, e1⟩, e2⟩, e3⟩, e4⟩, e5⟩, e6⟩, e7⟩, e8⟩ := e
  exact ⟨all_real _ _ _ a0 e0, all_real _ _ _ a1 e1, all_real _ _ _ a2 e2, all_real _ _ _ a3 e3,
    all_real _ _ _ a4 e4, all_real _ _ _ a5 e5, all_real _ _ _ a6 e6, all_real _ _ _ a7 e7, all_real _ _ _ a8 e8⟩

end Cert.Pre_finite_inputs.Finite

end
-- ==== Proof.RefRead.lean ====
/-
  The reference program read as the specification: its last stage, one element at a time.

  The reference computes three linear heads, the scaled inner products of query rows with key rows, the row maxima of
  those logits, the exponentials of the shifted logits, their row sums, the quotients of each exponential by its row
  sum, and finally the sum over key positions of quotient times value. This module reads each of those stages at an
  index given by coordinates and identifies it with the matching term of the specification: a head is `proj`, the
  scaled inner product is `logit`, the row maximum is `rowMax` (a maximum taken once more with −∞ changes nothing,
  since a fold of maxima from −∞ is at least −∞), the exponential is `weight`, and the last stage is `attnEarly`,
  the arrangement in which every weight is divided by the row sum before the weighted sum of the values.
-/
import proofs.«420514_j49864570307212_3_alg».proof.Proof.Gen.ReferenceIdeal.Read
import proofs.«420514_j49864570307212_3_alg».proof.Proof.Spec
import Idealize.ShloMosaic.Lib.Pipeline.Value
import Idealize.ShloMosaic.Lib.ValueIdx
import Idealize.ShloMosaic.PureOps.Ideal.Laws
import Mathlib.Data.Finset.Fold

set_option maxRecDepth 16384

noncomputable section

open scoped BigOperators

namespace Cert.ReferenceIdeal.RefRead

open Cert.ReferenceIdeal Cert.ReferenceIdeal.Gen Idealize.ShloMosaic Idealize.ShloMosaic.ValueIdx Idealize.ShloMosaic.TcCoe Idealize.SL.Sem

/-! ## The index maps of the stages, at an index given by coordinates -/

/-- A head's contraction reads the activation at (b, s, k). -/
theorem act_idx (b : Fin 4) (s : Fin 4096) (d : Fin 64) (k : Fin 2048) :
    Read.lidx_main_v0 (ix3 b s d) k = ix3 b s k :=
  funext fun a => by match a with | ⟨0, _⟩ => rfl | ⟨1, _⟩ => rfl | ⟨2, _⟩ => rfl

/-- A head's contraction reads the weight at (d, k). -/
theorem wt_idx (b : Fin 4) (s : Fin 4096) (d : Fin 64) (k : Fin 2048) :
    Read.ridx_main_v0 (ix3 b s d) k = ix2 d k :=
  funext fun a => by match a with | ⟨0, _⟩ => rfl | ⟨1, _⟩ => rfl

/-- A head's bias, broadcast over batch and position, is read at d. -/
theorem bias_idx (b : Fin 4) (s : Fin 4096) (d : Fin 64) :
    Read.idx_main_v1 (Read.idx_main_v2 (ix3 b s d)) = ix1 d :=
  funext fun a => by match a with | ⟨0, _⟩ => rfl

/-! ## The three heads -/

/-- The first head at (b, s, d): the activation's row against the weight's row, plus the bias. -/
theorem head_value (X : (⟨S4x4096x2048, .f32⟩ : BufTy).Contents (Elt Ideal)) (W : (⟨S64x2048, .f32⟩ : BufTy).Contents (Elt Ideal))
    (β : (⟨S64, .f32⟩ : BufTy).Contents (Elt Ideal)) (b : Fin 4) (s : Fin 4096) (d : Fin 64) :
    Read.val_main_v3 (F := Ideal) X W β (ix3 b s d) = Cert.Attn.proj X W (fun e => β (ix1 e)) b s d := by
  rw [Read.val_main_v3_apply, Read.val_main_v0_apply, Read.val_main_v2_apply, Read.val_main_v1_apply, Ideal.addf_def]
  show _ = (∑ k : Fin 2048, X (ix3 b s k) * W (ix2 d k)) + β (ix1 d)
  refine congrArg₂ (· + ·) (Finset.sum_congr rfl fun k _ => ?_) (congrArg β (bias_idx b s d))
  rw [act_idx, wt_idx]

/-- The key head is the same function of its own three arguments. -/
theorem head7_eq (X : (⟨S4x4096x2048, .f32⟩ : BufTy).Contents (Elt Ideal)) (W : (⟨S64x2048, .f32⟩ : BufTy).Contents (Elt Ideal))
    (β : (⟨S64, .f32⟩ : BufTy).Contents (Elt Ideal)) :
    Read.val_main_v7 (F := Ideal) X W β = Read.val_main_v3 (F := Ideal) X W β := rfl

/-- The value head is the same function of its own three arguments. -/
theorem head25_eq (X : (⟨S4x4096x2048, .f32⟩ : BufTy).Contents (Elt Ideal)) (W : (⟨S64x2048, .f32⟩ : BufTy).Contents (Elt Ideal))
    (β : (⟨S64, .f32⟩ : BufTy).Contents (Elt Ideal)) :
    Read.val_main_v25 (F := Ideal) X W β = Read.val_main_v3 (F := Ideal) X W β := rfl

/-! ## The logits -/

section Logits

variable (x0 x1 : (⟨S4x4096x2048, .f32⟩ : BufTy).Contents (Elt Ideal)) (x3 : (⟨S64x2048, .f32⟩ : BufTy).Contents (Elt Ideal))
  (x4 : (⟨S64, .f32⟩ : BufTy).Contents (Elt Ideal)) (x5 : (⟨S64x2048, .f32⟩ : BufTy).Contents (Elt Ideal))
  (x6 : (⟨S64, .f32⟩ : BufTy).Contents (Elt Ideal))

/-- The inner product of a query row with a key row reads the query head at (b, s, k). -/
theorem qk_lidx (b : Fin 4) (s t : Fin 4096) (k : Fin 64) : Read.lidx_main_v8 (ix3 b s t) k = ix3 b s k :=
  funext fun a => by match a with | ⟨0, _⟩ => rfl | ⟨1, _⟩ => rfl | ⟨2, _⟩ => rfl

/-- The inner product of a query row with a key row reads the key head at (b, t, k). -/
theorem qk_ridx (b : Fin 4) (s t : Fin 4096) (k : Fin 64) : Read.ridx_main_v8 (ix3 b s t) k = ix3 b t k :=
  funext fun a => by match a with | ⟨0, _⟩ => rfl | ⟨1, _⟩ => rfl | ⟨2, _⟩ => rfl

/-- The scaled inner products are the specification's logits of the query and key heads. -/
theorem logit_value (b : Fin 4) (s t : Fin 4096) :
    Read.val_main_v10 (F := Ideal) x0 x1 x3 x4 x5 x6 (ix3 b s t)
      = Cert.Attn.logit (Cert.Attn.proj x1 x3 (fun e => x4 (ix1 e))) (Cert.Attn.proj x0 x5 (fun e => x6 (ix1 e))) b s t := by
  rw [Read.val_main_v10_apply, Read.val_main_v8_apply, Read.val_main_v9_apply, Read.val_main_cst_apply, Ideal.mulf_def,
    Ideal.ofBits_def]
  show _ = (∑ k : Fin 64, Cert.Attn.proj x1 x3 (fun e => x4 (ix1 e)) b s k * Cert.Attn.proj x0 x5 (fun e => x6 (ix1 e)) b t k)
      * Cert.Attn.scale
  refine congrArg₂ (· * ·) (Finset.sum_congr rfl fun k _ => ?_) rfl
  rw [qk_lidx, qk_ridx, head7_eq, head_value, head_value]

/-! ## The row maximum -/

/-- Key position k put back into the reduced index (b, s) is (b, s, k). -/
theorem red_lift (h : S4x4096x4096.Reduces [2] S4x4096) (b : Fin 4) (s : Fin 4096) (k : Fin (S4x4096x4096.size 2)) :
    h.lift (ix2 b s) k = ix3 b s (⟨k.val, k.isLt⟩ : Fin 4096) :=
  funext fun c => Fin.ext (by match c with | ⟨0, _⟩ => rfl | ⟨1, _⟩ => rfl | ⟨2, _⟩ => rfl)

/-- The reduction with a maximum body over the key axis, from −∞, is the fold of maxima of the logits. -/
theorem rowMax_fold_value (b : Fin 4) (s : Fin 4096) :
    Read.val_main_v11 (F := Ideal) x0 x1 x3 x4 x5 x6 (ix2 b s)
      = Cert.Attn.rowMax (Cert.Attn.proj x1 x3 (fun e => x4 (ix1 e))) (Cert.Attn.proj x0 x5 (fun e => x6 (ix1 e))) b s := by
  have hR : S4x4096x4096.Reduces [2] S4x4096 := by decide
  unfold Read.val_main_v11
  rw [Host.reduce_eq_fold_single FloatOps.maximumf _ _ reducesTo_S4x4096x4096_S4x4096_d2 hR h_S_]
  have hf : (Read.val_main_v10 (F := Ideal) x0 x1 x3 x4 x5 x6 ∘ hR.lift (ix2 b s))
      = fun t : Fin 4096 => Cert.Attn.logit (Cert.Attn.proj x1 x3 (fun e => x4 (ix1 e))) (Cert.Attn.proj x0 x5 (fun e => x6 (ix1 e))) b s t :=
    funext fun k => (congrArg (Read.val_main_v10 (F := Ideal) x0 x1 x3 x4 x5 x6) (red_lift hR b s k)).trans
      (logit_value x0 x1 x3 x4 x5 x6 b s ⟨k.val, k.isLt⟩)
  exact congrArg (fun f => Finset.fold max (Ideal.ofBits .f32 0xFF800000#32) f (Finset.univ : Finset (Fin 4096))) hf

/-- Taking the maximum with −∞ once more changes nothing: the fold of maxima from −∞ is at least −∞. -/
theorem rowMax_value (b : Fin 4) (s : Fin 4096) :
    Read.val_main_v13 (F := Ideal) x0 x1 x3 x4 x5 x6 (ix2 b s)
      = Cert.Attn.rowMax (Cert.Attn.proj x1 x3 (fun e => x4 (ix1 e))) (Cert.Attn.proj x0 x5 (fun e => x6 (ix1 e))) b s := by
  rw [Read.val_main_v13_apply, Read.val_main_v12_apply, Read.val_main_cst_1_apply, rowMax_fold_value, Ideal.maximumf_def,
    Ideal.ofBits_def]
  refine max_eq_right ?_
  show Cert.Attn.negInf ≤ Finset.fold max Cert.Attn.negInf _ _
  exact (Finset.le_fold_max _).2 (Or.inl le_rfl)

end Logits

/-! ## The weights, their row sums, and the normalised weights -/

section Weights

variable (x0 x1 : (⟨S4x4096x2048, .f32⟩ : BufTy).Contents (Elt Ideal)) (x3 : (⟨S64x2048, .f32⟩ : BufTy).Contents (Elt Ideal))
  (x4 : (⟨S64, .f32⟩ : BufTy).Contents (Elt Ideal)) (x5 : (⟨S64x2048, .f32⟩ : BufTy).Contents (Elt Ideal))
  (x6 : (⟨S64, .f32⟩ : BufTy).Contents (Elt Ideal))

/-- The row maximum, broadcast along the key axis, is read at (b, s). -/
theorem max_bidx (b : Fin 4) (s t : Fin 4096) : Read.idx_main_v14 (Read.idx_main_v15 (ix3 b s t)) = ix2 b s :=
  funext fun a => by match a with | ⟨0, _⟩ => rfl | ⟨1, _⟩ => rfl

/-- The exponential of a logit less its row maximum is the specification's weight. -/
theorem weight_value (b : Fin 4) (s t : Fin 4096) :
    Read.val_main_v17 (F := Ideal) x0 x1 x3 x4 x5 x6 (ix3 b s t)
      = Cert.Attn.weight (Cert.Attn.proj x1 x3 (fun e => x4 (ix1 e))) (Cert.Attn.proj x0 x5 (fun e => x6 (ix1 e))) b s t := by
  rw [Read.val_main_v17_apply, Read.val_main_v16_apply, Read.val_main_v15_apply, Read.val_main_v14_apply, max_bidx, logit_value,
    rowMax_value, Ideal.subf_def, Ideal.hostUnary_exp_def]
  rfl

/-- The sum over the key axis reads the weights at (b, s, k). -/
theorem sum_idx (b : Fin 4) (s : Fin 4096) (k : Fin 4096) : Read.idx_main_v18 (ix2 b s) k = ix3 b s k :=
  funext fun a => by match a with | ⟨0, _⟩ => rfl | ⟨1, _⟩ => rfl | ⟨2, _⟩ => rfl

/-- The row sum, taken from the zero word, is the sum of the row's weights. -/
theorem rowSum_value (b : Fin 4) (s : Fin 4096) :
    Read.val_main_v18 (F := Ideal) x0 x1 x3 x4 x5 x6 (ix2 b s)
      = ∑ t : Fin 4096, Cert.Attn.weight (Cert.Attn.proj x1 x3 (fun e => x4 (ix1 e))) (Cert.Attn.proj x0 x5 (fun e => x6 (ix1 e))) b s t := by
  rw [Read.val_main_v18_apply, Read.val_main_cst_2_apply, Ideal.ofBits_def, Ideal.ofBits_zero_f32, zero_add]
  exact Finset.sum_congr rfl fun k _ => by rw [sum_idx, weight_value]

/-- The row sum, broadcast along the key axis, is read at (b, s). -/
theorem sum_bidx (b : Fin 4) (s t : Fin 4096) : Read.idx_main_v19 (Read.idx_main_v20 (ix3 b s t)) = ix2 b s :=
  funext fun a => by match a with | ⟨0, _⟩ => rfl | ⟨1, _⟩ => rfl

/-- The normalised weight: a weight divided by the sum of its row. -/
theorem soft_value (b : Fin 4) (s t : Fin 4096) :
    Read.val_main_v21 (F := Ideal) x0 x1 x3 x4 x5 x6 (ix3 b s t)
      = Ideal.div (Cert.Attn.weight (Cert.Attn.proj x1 x3 (fun e => x4 (ix1 e))) (Cert.Attn.proj x0 x5 (fun e => x6 (ix1 e))) b s t)
          (∑ t' : Fin 4096, Cert.Attn.weight (Cert.Attn.proj x1 x3 (fun e => x4 (ix1 e))) (Cert.Attn.proj x0 x5 (fun e => x6 (ix1 e))) b s t') := by
  rw [Read.val_main_v21_apply, Read.val_main_v20_apply, Read.val_main_v19_apply, sum_bidx, weight_value, rowSum_value,
    Ideal.hostDivf_def]

end Weights

/-! ## The last stage -/

/-- The last contraction reads the normalised weights at (b, s, k). -/
theorem out_lidx (b : Fin 4) (s : Fin 4096) (d : Fin 64) (k : Fin 4096) : Read.lidx_main_v26 (ix3 b s d) k = ix3 b s k :=
  funext fun a => by match a with | ⟨0, _⟩ => rfl | ⟨1, _⟩ => rfl | ⟨2, _⟩ => rfl

/-- The last contraction reads the value head at (b, k, d). -/
theorem out_ridx (b : Fin 4) (s : Fin 4096) (d : Fin 64) (k : Fin 4096) : Read.ridx_main_v26 (ix3 b s d) k = ix3 b k d :=
  funext fun a => by match a with | ⟨0, _⟩ => rfl | ⟨1, _⟩ => rfl | ⟨2, _⟩ => rfl

/-- The reference's result at (b, s, d) is attention over the three heads with every weight normalised before the
    weighted sum of the values. -/
theorem ref_value (x0 x1 x2 : (⟨S4x4096x2048, .f32⟩ : BufTy).Contents (Elt Ideal)) (x3 : (⟨S64x2048, .f32⟩ : BufTy).Contents (Elt Ideal))
    (x4 : (⟨S64, .f32⟩ : BufTy).Contents (Elt Ideal)) (x5 : (⟨S64x2048, .f32⟩ : BufTy).Contents (Elt Ideal))
    (x6 : (⟨S64, .f32⟩ : BufTy).Contents (Elt Ideal)) (x7 : (⟨S64x2048, .f32⟩ : BufTy).Contents (Elt Ideal))
    (x8 : (⟨S64, .f32⟩ : BufTy).Contents (Elt Ideal)) (b : Fin 4) (s : Fin 4096) (d : Fin 64) :
    Cert.ReferenceIdeal.Read.val_main_v26 (F := Ideal) x0 x1 x2 x3 x4 x5 x6 x7 x8 (ix3 b s d)
      = Cert.Attn.attnEarly (Cert.Attn.proj x1 x3 (fun e => x4 (ix1 e))) (Cert.Attn.proj x0 x5 (fun e => x6 (ix1 e)))
          (Cert.Attn.proj x2 x7 (fun e => x8 (ix1 e))) b s d := by
  rw [Read.val_main_v26_apply]
  show _ = ∑ t : Fin 4096,
      Ideal.div (Cert.Attn.weight (Cert.Attn.proj x1 x3 (fun e => x4 (ix1 e))) (Cert.Attn.proj x0 x5 (fun e => x6 (ix1 e))) b s t)
          (∑ t' : Fin 4096, Cert.Attn.weight (Cert.Attn.proj x1 x3 (fun e => x4 (ix1 e))) (Cert.Attn.proj x0 x5 (fun e => x6 (ix1 e))) b s t')
        * Cert.Attn.proj x2 x7 (fun e => x8 (ix1 e)) b t d
  exact Finset.sum_congr rfl fun k _ => by rw [out_lidx, out_ridx, soft_value, head25_eq, head_value]

end Cert.ReferenceIdeal.RefRead

end
-- ==== Proof.Heads.lean ====
/-
  The three projection heads that the first launch leaves in its output arrays, over the extended reals.

  The launch runs over a 4 × 8 grid; point t is (batch t / 8, row block t % 8) and handles 512 rows. At each point the
  body multiplies a [512, 2048] block of an activation by the transpose of a [64, 2048] weight, adds a [1, 64] bias
  row to every row of the product, and stores the result: the query head and the value head row-major as a
  [1, 512, 64] block, the key head transposed as a [1, 64, 512] block.

  Read at an entry, the product of a row block with a transposed weight is the finite sum over the 2048 model
  features of products of entries (the one contraction axis of the product is re-indexed by its coordinate, and each
  operand's index is identified coordinate by coordinate). A change of number format is the identity on extended
  reals, a shape cast that adds or drops a leading unit axis keeps the remaining coordinates, a row broadcast reads its
  one row, and a transpose swaps the two coordinates. So each stored block, at an entry, is the sum plus the bias.

  An entry (p, e) of the block at point t sits in the array at (t / 8, 512 (t % 8) + p, e) (for the transposed head at
  (t / 8, e, 512 (t % 8) + p)); the activation block at point t is the same rows of its array, and the weight and
  bias blocks are the whole weight and bias. Hence what point t writes back is block t of ONE function of the array's
  index, the linear head of the specification. Row s of batch b is covered by the point (b, s / 512), so the blocks
  cover each array, and each array ends holding that function: `queryHead`, `keyHeadT`, `valueHead`.
-/
import proofs.«420514_j49864570307212_3_alg».proof.Proof.Gen.KernelIdeal.Frame
import proofs.«420514_j49864570307212_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Heads

open Cert.KernelIdeal Cert.KernelIdeal.Gen Idealize.ShloMosaic Idealize.ShloMosaic.ValueIdx Idealize.ShloMosaic.TcCoe Idealize.SL.Sem
open Idealize.ShloMosaic.Pipeline (Dat)

/-! ## The product of a row block with the transposed weight, read at an entry -/

theorem lhs_rows_0 (i : S512x64.Idx) (q : dot_S512x2048_S64x2048_S512x64_1_1_0_0_n_n.contr.Idx) :
    (dot_S512x2048_S64x2048_S512x64_1_1_0_0_n_n.lhsIdx i q 0).val = (i 0).val := by
  unfold DotDims.lhsIdx
  rw [dif_neg (show ¬(0 : Fin S512x2048.rank) ∈ dot_S512x2048_S64x2048_S512x64_1_1_0_0_n_n.lhsBatch by decide), dif_pos (show (0 : Fin S512x2048.rank) ∈ dot_S512x2048_S64x2048_S512x64_1_1_0_0_n_n.lhsNonContracting by decide)]
  rfl

theorem lhs_rows_1 (i : S512x64.Idx) (q : dot_S512x2048_S64x2048_S512x64_1_1_0_0_n_n.contr.Idx) :
    (dot_S512x2048_S64x2048_S512x64_1_1_0_0_n_n.lhsIdx i q 1).val = (q ⟨0, by decide⟩).val :=
  dot_S512x2048_S64x2048_S512x64_1_1_0_0_n_n.lhsIdx_val_of_single rfl i q

theorem rhs_rows_0 (i : S512x64.Idx) (q : dot_S512x2048_S64x2048_S512x64_1_1_0_0_n_n.contr.Idx) :
    (dot_S512x2048_S64x2048_S512x64_1_1_0_0_n_n.rhsIdx i q 0).val = (i 1).val := by
  unfold DotDims.rhsIdx
  rw [dif_neg (show ¬(0 : Fin S64x2048.rank) ∈ dot_S512x2048_S64x2048_S512x64_1_1_0_0_n_n.rhsBatch by decide), dif_pos (show (0 : Fin S64x2048.rank) ∈ dot_S512x2048_S64x2048_S512x64_1_1_0_0_n_n.rhsNonContracting by decide)]
  rfl

theorem rhs_rows_1 (i : S512x64.Idx) (q : dot_S512x2048_S64x2048_S512x64_1_1_0_0_n_n.contr.Idx) :
    (dot_S512x2048_S64x2048_S512x64_1_1_0_0_n_n.rhsIdx i q 1).val = (q ⟨0, by decide⟩).val :=
  dot_S512x2048_S64x2048_S512x64_1_1_0_0_n_n.rhsIdx_val_of_single rfl i q

theorem matmul_rows_apply {φ₁ φ₂ : FTy} (l : FVec Ideal S512x2048 φ₁) (w : FVec Ideal S64x2048 φ₂) (p : Fin 512) (e : Fin 64) :
    matmul dot_S512x2048_S64x2048_S512x64_1_1_0_0_n_n none l w (constant S512x64 .f32 0x00000000#32) (ix2 p e)
      = ∑ k : Fin 2048, l (ix2 p k) * w (ix2 e k) := by
  simp only [matmul]
  rw [Ideal.matmul_constant_zero_apply, ← Equiv.sum_comp (contrEquiv1 dot_S512x2048_S64x2048_S512x64_1_1_0_0_n_n 2048 rfl rfl).symm]
  refine Finset.sum_congr rfl fun k _ => ?_
  have hk := contrEquiv1_symm_val dot_S512x2048_S64x2048_S512x64_1_1_0_0_n_n 2048 rfl rfl k
  have el : dot_S512x2048_S64x2048_S512x64_1_1_0_0_n_n.lhsIdx (ix2 p e) ((contrEquiv1 dot_S512x2048_S64x2048_S512x64_1_1_0_0_n_n 2048 rfl rfl).symm k) = ix2 p k := funext fun a => Fin.ext (by
    match a with
    | ⟨0, _⟩ => exact lhs_rows_0 _ _
    | ⟨1, _⟩ => exact (lhs_rows_1 _ _).trans hk)
  have er : dot_S512x2048_S64x2048_S512x64_1_1_0_0_n_n.rhsIdx (ix2 p e) ((contrEquiv1 dot_S512x2048_S64x2048_S512x64_1_1_0_0_n_n 2048 rfl rfl).symm k) = ix2 e k := funext fun a => Fin.ext (by
    match a with
    | ⟨0, _⟩ => exact rhs_rows_0 _ _
    | ⟨1, _⟩ => exact (rhs_rows_1 _ _).trans hk)
  rw [el, er]

/-! ## The three payloads at an entry -/

theorem queryBlock_apply (x0 : Vec Ideal S1x512x2048 .f32) (x3 : Vec Ideal S64x2048 .f32) (x4 : Vec Ideal S1x64 .f32) (u : Fin 1) (p : Fin 512) (e : Fin 64) :
    k0_pay2 (F := Ideal) x0 x3 x4 (ix3 u p e)
      = (∑ k : Fin 2048, x0 (ix3 (0 : Fin 1) p k) * x3 (ix2 e k)) + x4 (ix2 (0 : Fin 1) e) := by
  unfold k0_pay2
  rw [shapeCast_ab_1ab_apply, truncf_apply, addf_apply, matmul_rows_apply, broadcastTo_1b_ab_apply, shapeCast_self]
  congr 1
  refine Finset.sum_congr rfl fun k _ => ?_
  rw [truncf_apply, truncf_apply, shapeCast_1ab_ab_apply]

theorem keyBlock_apply (x1 : Vec Ideal S1x512x2048 .f32) (x5 : Vec Ideal S64x2048 .f32) (x6 : Vec Ideal S1x64 .f32) (u : Fin 1) (e : Fin 64) (p : Fin 512) :
    k0_pay3 (F := Ideal) x1 x5 x6 (ix3 u e p)
      = (∑ k : Fin 2048, x1 (ix3 (0 : Fin 1) p k) * x5 (ix2 e k)) + x6 (ix2 (0 : Fin 1) e) := by
  unfold k0_pay3
  rw [shapeCast_ab_1ab_apply, transpose_ix2_apply, truncf_apply, addf_apply, matmul_rows_apply, broadcastTo_1b_ab_apply, shapeCast_self]
  congr 1
  refine Finset.sum_congr rfl fun k _ => ?_
  rw [truncf_apply, truncf_apply, shapeCast_1ab_ab_apply]

theorem valueBlock_apply (x2 : Vec Ideal S1x512x2048 .f32) (x7 : Vec Ideal S64x2048 .f32) (x8 : Vec Ideal S1x64 .f32) (u : Fin 1) (p : Fin 512) (e : Fin 64) :
    k0_pay1 (F := Ideal) (k0_pay4 (F := Ideal) x2) x7 x8 (ix3 u p e)
      = (∑ k : Fin 2048, x2 (ix3 (0 : Fin 1) p k) * x7 (ix2 e k)) + x8 (ix2 (0 : Fin 1) e) := by
  unfold k0_pay1 k0_pay4
  rw [shapeCast_ab_1ab_apply, addf_apply, matmul_rows_apply, broadcastTo_1b_ab_apply, shapeCast_self]
  congr 1
  refine Finset.sum_congr rfl fun k _ => ?_
  rw [truncf_apply, truncf_apply, shapeCast_1ab_ab_apply]

/-! ## From the blocks to the arrays -/

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- Where each window's block sits at grid point `t`: the point is (t / 8, t % 8); an activation block and a
    row-major head block are at (t / 8, t % 8, 0), a transposed head block at (t / 8, 0, t % 8), a weight or a bias
    block at the origin. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = t.val / 8 ∧ win0_9.index t (1 : Fin 3) = t.val % 8 ∧ win0_9.index t (2 : Fin 3) = 0)
    ∧ (win0_10.index t (0 : Fin 3) = t.val / 8 ∧ win0_10.index t (1 : Fin 3) = 0 ∧ win0_10.index t (2 : Fin 3) = t.val % 8)
    ∧ (win0_11.index t (0 : Fin 3) = t.val / 8 ∧ win0_11.index t (1 : Fin 3) = t.val % 8 ∧ win0_11.index t (2 : Fin 3) = 0) :=
  (by decide +kernel : ∀ t : Fin grid0.N, _)

/-- Every (batch, row block) pair is some grid point's. -/
theorem point_onto : ∀ (q0 : Fin 4) (q1 : Fin 8), ∃ t : Fin cfg0.N, t.val = q0.val * 8 + q1.val :=
  (by decide +kernel : ∀ (q0 : Fin 4) (q1 : Fin 8), ∃ t : Fin grid0.N, t.val = q0.val * 8 + q1.val)

/-! ### Each input block as entries of its array -/

/-- The block at point `t` of the activation the query head is projected from: 512 rows of batch `t / 8` of its array, from row `512 (t % 8)`. -/
theorem actBlock0_apply (c : Dev nD) (t : Fin cfg0.N) (u : Fin 1) (p : Fin 512) (k : Fin 2048) (b : Fin 4) (s : Fin 4096)
    (hb : b.val = t.val / 8) (hs : s.val = t.val % 8 * 512 + p.val) :
    (iblk0 (F := Ideal) V c 0 t : Vec Ideal S1x512x2048 .f32) (ix3 u p k) = V c main_arg1 (ix3 b s k) := by
  obtain ⟨⟨e0, e1, e2⟩, -⟩ := idx_facts t
  unfold iblk0
  rw [View.read_apply]
  show V c main_arg1 _ = V c main_arg1 _
  refine congrArg (V c main_arg1) (funext fun a => Fin.ext ?_)
  match a with
  | ⟨0, _⟩ => show win0_0.index t (0 : Fin 3) * 1 + 1 * u.val = b.val; omega
  | ⟨1, _⟩ => show win0_0.index t (1 : Fin 3) * 512 + 1 * p.val = s.val; omega
  | ⟨2, _⟩ => show win0_0.index t (2 : Fin 3) * 2048 + 1 * k.val = k.val; omega

/-- The block at point `t` of the activation the key head is projected from: the same rows of its array. -/
theorem actBlock1_apply (c : Dev nD) (t : Fin cfg0.N) (u : Fin 1) (p : Fin 512) (k : Fin 2048) (b : Fin 4) (s : Fin 4096)
    (hb : b.val = t.val / 8) (hs : s.val = t.val % 8 * 512 + p.val) :
    (iblk0 (F := Ideal) V c 1 t : Vec Ideal S1x512x2048 .f32) (ix3 u p k) = V c main_arg0 (ix3 b s k) := by
  obtain ⟨-, ⟨e0, e1, e2⟩, -⟩ := idx_facts t
  unfold iblk0
  rw [View.read_apply]
  show V c main_arg0 _ = V c main_arg0 _
  refine congrArg (V c main_arg0) (funext fun a => Fin.ext ?_)
  match a with
  | ⟨0, _⟩ => show win0_1.index t (0 : Fin 3) * 1 + 1 * u.val = b.val; omega
  | ⟨1, _⟩ => show win0_1.index t (1 : Fin 3) * 512 + 1 * p.val = s.val; omega
  | ⟨2, _⟩ => show win0_1.index t (2 : Fin 3) * 2048 + 1 * k.val = k.val; omega

/-- The block at point `t` of the activation the value head is projected from: the same rows of its array. -/
theorem actBlock2_apply (c : Dev nD) (t : Fin cfg0.N) (u : Fin 1) (p : Fin 512) (k : Fin 2048) (b : Fin 4) (s : Fin 4096)
    (hb : b.val = t.val / 8) (hs : s.val = t.val % 8 * 512 + p.val) :
    (iblk0 (F := Ideal) V c 2 t : Vec Ideal S1x512x2048 .f32) (ix3 u p k) = V c main_arg2 (ix3 b s k) := by
  obtain ⟨-, -, ⟨e0, e1, e2⟩, -⟩ := idx_facts t
  unfold iblk0
  rw [View.read_apply]
  show V c main_arg2 _ = V c main_arg2 _
  refine congrArg (V c main_arg2) (funext fun a => Fin.ext ?_)
  match a with
  | ⟨0, _⟩ => show win0_2.index t (0 : Fin 3) * 1 + 1 * u.val = b.val; omega
  | ⟨1, _⟩ => show win0_2.index t (1 : Fin 3) * 512 + 1 * p.val = s.val; omega
  | ⟨2, _⟩ => show win0_2.index t (2 : Fin 3) * 2048 + 1 * k.val = k.val; omega

/-- The query weight's block is the whole weight. -/
theorem wBlock3_apply (c : Dev nD) (t : Fin cfg0.N) (e : Fin 64) (k : Fin 2048) :
    (iblk0 (F := Ideal) V c 3 t : Vec Ideal S64x2048 .f32) (ix2 e k) = V c main_arg3 (ix2 e k) := by
  obtain ⟨-, -, -, ⟨e0, e1⟩, -⟩ := idx_facts t
  unfold iblk0
  rw [View.read_apply]
  show V c main_arg3 _ = V c main_arg3 _
  refine congrArg (V c main_arg3) (funext fun a => Fin.ext ?_)
  match a with
  | ⟨0, _⟩ => show win0_3.index t (0 : Fin 2) * 64 + 1 * e.val = e.val; omega
  | ⟨1, _⟩ => show win0_3.index t (1 : Fin 2) * 2048 + 1 * k.val = k.val; omega

/-- The query bias's block is the whole bias row. -/
theorem bBlock4_apply (c : Dev nD) (t : Fin cfg0.N) (u : Fin 1) (e : Fin 64) :
    (iblk0 (F := Ideal) V c 4 t : Vec Ideal S1x64 .f32) (ix2 u e) = V c main_v0 (ix2 0 e) := by
  obtain ⟨-, -, -, -, ⟨e0, e1⟩, -⟩ := idx_facts t
  unfold iblk0
  rw [View.read_apply]
  show V c main_v0 _ = V c main_v0 _
  refine congrArg (V c main_v0) (funext fun a => Fin.ext ?_)
  match a with
  | ⟨0, _⟩ => show win0_4.index t (0 : Fin 2) * 1 + 1 * u.val = 0; omega
  | ⟨1, _⟩ => show win0_4.index t (1 : Fin 2) * 64 + 1 * e.val = e.val; omega

/-- The key weight's block is the whole weight. -/
theorem wBlock5_apply (c : Dev nD) (t : Fin cfg0.N) (e : Fin 64) (k : Fin 2048) :
    (iblk0 (F := Ideal) V c 5 t : Vec Ideal S64x2048 .f32) (ix2 e k) = V c main_arg5 (ix2 e k) := by
  obtain ⟨-, -, -, -, -, ⟨e0, e1⟩, -⟩ := idx_facts t
  unfold iblk0
  rw [View.read_apply]
  show V c main_arg5 _ = V c main_arg5 _
  refine congrArg (V c main_arg5) (funext fun a => Fin.ext ?_)
  match a with
  | ⟨0, _⟩ => show win0_5.index t (0 : Fin 2) * 64 + 1 * e.val = e.val; omega
  | ⟨1, _⟩ => show win0_5.index t (1 : Fin 2) * 2048 + 1 * k.val = k.val; omega

/-- The key bias's block is the whole bias row. -/
theorem bBlock6_apply (c : Dev nD) (t : Fin cfg0.N) (u : Fin 1) (e : Fin 64) :
    (iblk0 (F := Ideal) V c 6 t : Vec Ideal S1x64 .f32) (ix2 u e) = V c main_v1 (ix2 0 e) := by
  obtain ⟨-, -, -, -, -, -, ⟨e0, e1⟩, -⟩ := idx_facts t
  unfold iblk0
  rw [View.read_apply]
  show V c main_v1 _ = V c main_v1 _
  refine congrArg (V c main_v1) (funext fun a => Fin.ext ?_)
  match a with
  | ⟨0, _⟩ => show win0_6.index t (0 : Fin 2) * 1 + 1 * u.val = 0; omega
  | ⟨1, _⟩ => show win0_6.index t (1 : Fin 2) * 64 + 1 * e.val = e.val; omega

/-- The value weight's block is the whole weight. -/
theorem wBlock7_apply (c : Dev nD) (t : Fin cfg0.N) (e : Fin 64) (k : Fin 2048) :
    (iblk0 (F := Ideal) V c 7 t : Vec Ideal S64x2048 .f32) (ix2 e k) = V c main_arg7 (ix2 e k) := by
  obtain ⟨-, -, -, -, -, -, -, ⟨e0, e1⟩, -⟩ := idx_facts t
  unfold iblk0
  rw [View.read_apply]
  show V c main_arg7 _ = V c main_arg7 _
  refine congrArg (V c main_arg7) (funext fun a => Fin.ext ?_)
  match a with
  | ⟨0, _⟩ => show win0_7.index t (0 : Fin 2) * 64 + 1 * e.val = e.val; omega
  | ⟨1, _⟩ => show win0_7.index t (1 : Fin 2) * 2048 + 1 * k.val = k.val; omega

/-- The value bias's block is the whole bias row. -/
theorem bBlock8_apply (c : Dev nD) (t : Fin cfg0.N) (u : Fin 1) (e : Fin 64) :
    (iblk0 (F := Ideal) V c 8 t : Vec Ideal S1x64 .f32) (ix2 u e) = V c main_v2 (ix2 0 e) := by
  obtain ⟨-, -, -, -, -, -, -, -, ⟨e0, e1⟩, -⟩ := idx_facts t
  unfold iblk0
  rw [View.read_apply]
  show V c main_v2 _ = V c main_v2 _
  refine congrArg (V c main_v2) (funext fun a => Fin.ext ?_)
  match a with
  | ⟨0, _⟩ => show win0_8.index t (0 : Fin 2) * 1 + 1 * u.val = 0; omega
  | ⟨1, _⟩ => show win0_8.index t (1 : Fin 2) * 64 + 1 * e.val = e.val; omega

/-! ### The query head -/

/-- The query head as one function of the array's index. -/
abbrev queryArr (c : Dev nD) : S4x4096x64.Idx → Elt Ideal .bf16 := fun i =>
  Cert.Attn.proj (V c main_arg1) (V c main_arg3) (fun e => V c main_v0 (ix2 0 e)) (i 0) (i 1) (i 2)

/-- What point `t` writes back to the query head's array is block `t` of the query head. -/
theorem queryFlushed (c : Dev nD) (t : Fin cfg0.N) :
    (dat0 (F := Ideal) V c).flushed 9 t = ((cfg0.win 9).blk t).view.read (Elt Ideal) (queryArr V c) := by
  show (cfg0.win 9).cut (grid0.coords t) ((dat0 (F := Ideal) V c).after 9 t) = _
  rw [after0_9]
  unfold out0_9
  rw [View.canon_unit_zero hz3]
  simp only [View.ld_unit_zero (S := S1x512x2048) hz3, View.ld_unit_zero (S := S64x2048) hz2, View.ld_unit_zero (S := S1x64) hz2]
  funext j
  obtain ⟨u, p, e, rfl⟩ : ∃ (u : Fin 1) (p : Fin 512) (e : Fin 64), j = ix3 u p e := ⟨j 0, j 1, j 2, eq_ix3 (n0 := 1) (n1 := 512) (n2 := 64) j⟩
  obtain ⟨-, -, -, -, -, -, -, -, -, ⟨e0, e1, e2⟩, -⟩ := idx_facts t
  have ht : t.val < 32 := t.isLt
  show k0_pay2 (F := Ideal) (iblk0 V c 0 t) (iblk0 V c 3 t) (iblk0 V c 4 t) (ix3 u p e) = queryArr V c (((cfg0.win 9).blk t).view.emb (ix3 u p e))
  refine (queryBlock_apply (iblk0 V c 0 t) (iblk0 V c 3 t) (iblk0 V c 4 t) u p e).trans ?_
  obtain ⟨b, s, hi, hb, hs⟩ : ∃ (b : Fin 4) (s : Fin 4096), ((cfg0.win 9).blk t).view.emb (ix3 u p e) = ix3 b s e ∧ b.val = t.val / 8 ∧ s.val = t.val % 8 * 512 + p.val := by
    refine ⟨⟨t.val / 8, by omega⟩, ⟨t.val % 8 * 512 + p.val, by omega⟩, ?_, rfl, rfl⟩
    funext a; apply Fin.ext
    match a with
    | ⟨0, _⟩ => show win0_9.index t (0 : Fin 3) * 1 + 1 * u.val = t.val / 8; omega
    | ⟨1, _⟩ => show win0_9.index t (1 : Fin 3) * 512 + 1 * p.val = t.val % 8 * 512 + p.val; omega
    | ⟨2, _⟩ => show win0_9.index t (2 : Fin 3) * 64 + 1 * e.val = e.val; omega
  rw [hi]
  show _ = Cert.Attn.proj (V c main_arg1) (V c main_arg3) (fun e => V c main_v0 (ix2 0 e)) b s e
  unfold Cert.Attn.proj
  refine congrArg₂ (· + ·) (Finset.sum_congr rfl fun k _ => ?_) (bBlock4_apply V c t 0 e)
  rw [actBlock0_apply V c t 0 p k b s hb hs, wBlock3_apply V c t e k]

/-- An index of the query head's array is in point `t`'s block iff each coordinate is in the block's range. -/
theorem mem_blk9 (t : Fin cfg0.N) (i : S4x4096x64.Idx) :
    i ∈ ((cfg0.win 9).blk t).view.set ↔ ∀ a : Fin 3, win0_9.index t a * S1x512x64.size a ≤ (i a).val ∧ (i a).val < win0_9.index t a * S1x512x64.size a + S1x512x64.size a := by
  show i ∈ ((View.whole main_v3_0).slice (win0_9.rect t)).set ↔ _
  rw [View.set_slice_whole, Rect.mem_set_unit]
  exact Iff.rfl

/-- Row `s` of batch `b` is covered by the point (b, s / 512). -/
theorem queryCover (i : S4x4096x64.Idx) :
    ∃ t : Fin cfg0.N, (cfg0.win 9).flush t = true ∧ i ∈ ((cfg0.win 9).blk t).view.set := by
  have hi0 : (i 0).val < 4 := (i 0).isLt
  have hi1 : (i 1).val < 4096 := (i 1).isLt
  have hi2 : (i 2).val < 64 := (i 2).isLt
  obtain ⟨t, ht⟩ := point_onto ⟨(i 0).val, hi0⟩ ⟨(i 1).val / 512, by omega⟩
  have ht' : t.val = (i 0).val * 8 + (i 1).val / 512 := ht
  obtain ⟨-, -, -, -, -, -, -, -, -, ⟨e0, e1, e2⟩, -⟩ := idx_facts t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 64 ≤ (i 2).val ∧ (i 2).val < win0_9.index t (2 : Fin 3) * 64 + 64; omega

theorem queryHead (c : Dev nD) (b : Fin 4) (s : Fin 4096) (d : Fin 64) :
    (dat0 (F := Ideal) V c).arrAt 9 cfg0.N (ix3 b s d)
      = Cert.Attn.proj (V c main_arg1) (V c main_arg3) (fun e => V c main_v0 (ix2 0 e)) b s d :=
  congrFun ((dat0 (F := Ideal) V c).arrAt_eq_of_cover 9 (queryArr V c) (fun t _ => queryFlushed V c t) (queryCover)) (ix3 b s d)

/-! ### The key head, stored transposed -/

/-- The transposed key head as one function of the array's index: feature on axis 1, position on axis 2. -/
abbrev keyArrT (c : Dev nD) : S4x64x4096.Idx → Elt Ideal .bf16 := fun i =>
  Cert.Attn.proj (V c main_arg0) (V c main_arg5) (fun e => V c main_v1 (ix2 0 e)) (i 0) (i 2) (i 1)

/-- What point `t` writes back to the key head's array is block `t` of the transposed key head. -/
theorem keyFlushed (c : Dev nD) (t : Fin cfg0.N) :
    (dat0 (F := Ideal) V c).flushed 10 t = ((cfg0.win 10).blk t).view.read (Elt Ideal) (keyArrT V c) := by
  show (cfg0.win 10).cut (grid0.coords t) ((dat0 (F := Ideal) V c).after 10 t) = _
  rw [after0_10]
  unfold out0_10
  rw [View.canon_unit_zero hz3]
  simp only [View.ld_unit_zero (S := S1x512x2048) hz3, View.ld_unit_zero (S := S64x2048) hz2, View.ld_unit_zero (S := S1x64) hz2]
  funext j
  obtain ⟨u, e, p, rfl⟩ : ∃ (u : Fin 1) (e : Fin 64) (p : Fin 512), j = ix3 u e p := ⟨j 0, j 1, j 2, eq_ix3 (n0 := 1) (n1 := 64) (n2 := 512) j⟩
  obtain ⟨-, -, -, -, -, -, -, -, -, -, ⟨e0, e1, e2⟩, -⟩ := idx_facts t
  have ht : t.val < 32 := t.isLt
  show k0_pay3 (F := Ideal) (iblk0 V c 1 t) (iblk0 V c 5 t) (iblk0 V c 6 t) (ix3 u e p) = keyArrT V c (((cfg0.win 10).blk t).view.emb (ix3 u e p))
  refine (keyBlock_apply (iblk0 V c 1 t) (iblk0 V c 5 t) (iblk0 V c 6 t) u e p).trans ?_
  obtain ⟨b, s, hi, hb, hs⟩ : ∃ (b : Fin 4) (s : Fin 4096), ((cfg0.win 10).blk t).view.emb (ix3 u e p) = ix3 b e s ∧ b.val = t.val / 8 ∧ s.val = t.val % 8 * 512 + p.val := by
    refine ⟨⟨t.val / 8, by omega⟩, ⟨t.val % 8 * 512 + p.val, by omega⟩, ?_, rfl, rfl⟩
    funext a; apply Fin.ext
    match a with
    | ⟨0, _⟩ => show win0_10.index t (0 : Fin 3) * 1 + 1 * u.val = t.val / 8; omega
    | ⟨1, _⟩ => show win0_10.index t (1 : Fin 3) * 64 + 1 * e.val = e.val; omega
    | ⟨2, _⟩ => show win0_10.index t (2 : Fin 3) * 512 + 1 * p.val = t.val % 8 * 512 + p.val; omega
  rw [hi]
  show _ = Cert.Attn.proj (V c main_arg0) (V c main_arg5) (fun e => V c main_v1 (ix2 0 e)) b s e
  unfold Cert.Attn.proj
  refine congrArg₂ (· + ·) (Finset.sum_congr rfl fun k _ => ?_) (bBlock6_apply V c t 0 e)
  rw [actBlock1_apply V c t 0 p k b s hb hs, wBlock5_apply V c t e k]

/-- An index of the key head's array is in point `t`'s block iff each coordinate is in the block's range. -/
theorem mem_blk10 (t : Fin cfg0.N) (i : S4x64x4096.Idx) :
    i ∈ ((cfg0.win 10).blk t).view.set ↔ ∀ a : Fin 3, win0_10.index t a * S1x64x512.size a ≤ (i a).val ∧ (i a).val < win0_10.index t a * S1x64x512.size a + S1x64x512.size a := by
  show i ∈ ((View.whole main_v3_1).slice (win0_10.rect t)).set ↔ _
  rw [View.set_slice_whole, Rect.mem_set_unit]
  exact Iff.rfl

/-- Position `s` of batch `b` is covered by the point (b, s / 512). -/
theorem keyCover (i : S4x64x4096.Idx) :
    ∃ t : Fin cfg0.N, (cfg0.win 10).flush t = true ∧ i ∈ ((cfg0.win 10).blk t).view.set := by
  have hi0 : (i 0).val < 4 := (i 0).isLt
  have hi1 : (i 1).val < 64 := (i 1).isLt
  have hi2 : (i 2).val < 4096 := (i 2).isLt
  obtain ⟨t, ht⟩ := point_onto ⟨(i 0).val, hi0⟩ ⟨(i 2).val / 512, by omega⟩
  have ht' : t.val = (i 0).val * 8 + (i 2).val / 512 := ht
  obtain ⟨-, -, -, -, -, -, -, -, -, -, ⟨e0, e1, e2⟩, -⟩ := idx_facts t
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 64 ≤ (i 1).val ∧ (i 1).val < win0_10.index t (1 : Fin 3) * 64 + 64; omega
  | ⟨2, _⟩ => show win0_10.index t (2 : Fin 3) * 512 ≤ (i 2).val ∧ (i 2).val < win0_10.index t (2 : Fin 3) * 512 + 512; omega

theorem keyHeadT (c : Dev nD) (b : Fin 4) (d : Fin 64) (t : Fin 4096) :
    (dat0 (F := Ideal) V c).arrAt 10 cfg0.N (ix3 b d t)
      = Cert.Attn.proj (V c main_arg0) (V c main_arg5) (fun e => V c main_v1 (ix2 0 e)) b t d :=
  congrFun ((dat0 (F := Ideal) V c).arrAt_eq_of_cover 10 (keyArrT V c) (fun t _ => keyFlushed V c t) (keyCover)) (ix3 b d t)

/-! ### The value head -/

/-- The value head as one function of the array's index. -/
abbrev valueArr (c : Dev nD) : S4x4096x64.Idx → Elt Ideal .f32 := fun i =>
  Cert.Attn.proj (V c main_arg2) (V c main_arg7) (fun e => V c main_v2 (ix2 0 e)) (i 0) (i 1) (i 2)

/-- What point `t` writes back to the value head's array is block `t` of the value head. -/
theorem valueFlushed (c : Dev nD) (t : Fin cfg0.N) :
    (dat0 (F := Ideal) V c).flushed 11 t = ((cfg0.win 11).blk t).view.read (Elt Ideal) (valueArr V c) := by
  show (cfg0.win 11).cut (grid0.coords t) ((dat0 (F := Ideal) V c).after 11 t) = _
  rw [after0_11]
  unfold out0_11
  rw [View.canon_unit_zero hz3]
  simp only [View.ld_unit_zero (S := S1x512x2048) hz3, View.ld_unit_zero (S := S64x2048) hz2, View.ld_unit_zero (S := S1x64) hz2]
  funext j
  obtain ⟨u, p, e, rfl⟩ : ∃ (u : Fin 1) (p : Fin 512) (e : Fin 64), j = ix3 u p e := ⟨j 0, j 1, j 2, eq_ix3 (n0 := 1) (n1 := 512) (n2 := 64) j⟩
  obtain ⟨-, -, -, -, -, -, -, -, -, -, -, ⟨e0, e1, e2⟩⟩ := idx_facts t
  have ht : t.val < 32 := t.isLt
  show k0_pay1 (F := Ideal) (k0_pay4 (F := Ideal) (iblk0 V c 2 t)) (iblk0 V c 7 t) (iblk0 V c 8 t) (ix3 u p e) = valueArr V c (((cfg0.win 11).blk t).view.emb (ix3 u p e))
  refine (valueBlock_apply (iblk0 V c 2 t) (iblk0 V c 7 t) (iblk0 V c 8 t) u p e).trans ?_
  obtain ⟨b, s, hi, hb, hs⟩ : ∃ (b : Fin 4) (s : Fin 4096), ((cfg0.win 11).blk t).view.emb (ix3 u p e) = ix3 b s e ∧ b.val = t.val / 8 ∧ s.val = t.val % 8 * 512 + p.val := by
    refine ⟨⟨t.val / 8, by omega⟩, ⟨t.val % 8 * 512 + p.val, by omega⟩, ?_, rfl, rfl⟩
    funext a; apply Fin.ext
    match a with
    | ⟨0, _⟩ => show win0_11.index t (0 : Fin 3) * 1 + 1 * u.val = t.val / 8; omega
    | ⟨1, _⟩ => show win0_11.index t (1 : Fin 3) * 512 + 1 * p.val = t.val % 8 * 512 + p.val; omega
    | ⟨2, _⟩ => show win0_11.index t (2 : Fin 3) * 64 + 1 * e.val = e.val; omega
  rw [hi]
  show _ = Cert.Attn.proj (V c main_arg2) (V c main_arg7) (fun e => V c main_v2 (ix2 0 e)) b s e
  unfold Cert.Attn.proj
  refine congrArg₂ (· + ·) (Finset.sum_congr rfl fun k _ => ?_) (bBlock8_apply V c t 0 e)
  rw [actBlock2_apply V c t 0 p k b s hb hs, wBlock7_apply V c t e k]

/-- An index of the value head's array is in point `t`'s block iff each coordinate is in the block's range. -/
theorem mem_blk11 (t : Fin cfg0.N) (i : S4x4096x64.Idx) :
    i ∈ ((cfg0.win 11).blk t).view.set ↔ ∀ a : Fin 3, win0_11.index t a * S1x512x64.size a ≤ (i a).val ∧ (i a).val < win0_11.index t a * S1x512x64.size a + S1x512x64.size a := by
  show i ∈ ((View.whole main_v3_2).slice (win0_11.rect t)).set ↔ _
  rw [View.set_slice_whole, Rect.mem_set_unit]
  exact Iff.rfl

/-- Row `s` of batch `b` is covered by the point (b, s / 512). -/
theorem valueCover (i : S4x4096x64.Idx) :
    ∃ t : Fin cfg0.N, (cfg0.win 11).flush t = true ∧ i ∈ ((cfg0.win 11).blk t).view.set := by
  have hi0 : (i 0).val < 4 := (i 0).isLt
  have hi1 : (i 1).val < 4096 := (i 1).isLt
  have hi2 : (i 2).val < 64 := (i 2).isLt
  obtain ⟨t, ht⟩ := point_onto ⟨(i 0).val, hi0⟩ ⟨(i 1).val / 512, by omega⟩
  have ht' : t.val = (i 0).val * 8 + (i 1).val / 512 := ht
  obtain ⟨-, -, -, -, -, -, -, -, -, -, -, ⟨e0, e1, e2⟩⟩ := idx_facts t
  refine ⟨t, flush0_11 t, ?_⟩
  rw [mem_blk11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 512 ≤ (i 1).val ∧ (i 1).val < win0_11.index t (1 : Fin 3) * 512 + 512; omega
  | ⟨2, _⟩ => show win0_11.index t (2 : Fin 3) * 64 ≤ (i 2).val ∧ (i 2).val < win0_11.index t (2 : Fin 3) * 64 + 64; omega

theorem valueHead (c : Dev nD) (b : Fin 4) (s : Fin 4096) (d : Fin 64) :
    (dat0 (F := Ideal) V c).arrAt 11 cfg0.N (ix3 b s d)
      = Cert.Attn.proj (V c main_arg2) (V c main_arg7) (fun e => V c main_v2 (ix2 0 e)) b s d :=
  congrFun ((dat0 (F := Ideal) V c).arrAt_eq_of_cover 11 (valueArr V c) (fun t _ => valueFlushed V c t) (valueCover)) (ix3 b s d)

end Cert.KernelIdeal.Heads

end
-- ==== Proof.LibKeepdims.lean ====
/-
  A reduced axis kept as a unit axis, read by coordinates: the two layout steps that carry a per-row quantity
  (a row's maximum, a row's sum) back over the row.

  * an [a] vector cast to a column [a, 1] reads, at (i, u), the vector at i (the unit coordinate u is 0);
  * a column [a, 1] broadcast along its unit axis to [a, b] reads, at (i, j), the column at (i, 0).

  Both are the library's general reading lemmas (a cast keeps the row-major position; a broadcast reads 0 on a unit
  axis) instantiated at these small shapes, with every index written by its coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.AttnBlockPay.lean ====
/-
  One block of attention, read entry by entry.

  The body of the second region takes a block of 1024 query rows (64 features each), the whole 64 × 4096 array of
  transposed keys of the same batch, and the whole 4096 × 64 array of values of that batch. What it stores is a
  composition of three steps, each read here at an index:

  * the logits: entry (r, t) of the product of the query block with the transposed keys, times the scale, is
    (∑ d, q[r, d] · kT[d, t]) · scale;
  * the weights: entry (r, t) is exp (logit[r, t] − m[r]) where m[r] is the maximum of row r of the logits, folded from
    the word of −∞ (the row maximum is kept as a column and spread back over the row);
  * the quotient: entry (r, e) is (∑ t, weight[r, t] · v[t, e]) divided by (∑ t, weight[r, t]) (the row sum, again kept
    as a column and spread over the 64 features).

  Changes of float format are the identity on the extended reals, and a leading axis of extent one only renames
  indices, so the stored block at (0, r, e) is that quotient with the weights written out.
-/
import proofs.«420514_j49864570307212_3_alg».proof.Proof.Gen.KernelIdeal.Skeleton
import proofs.«420514_j49864570307212_3_alg».proof.Proof.Spec
import proofs.«420514_j49864570307212_3_alg».proof.Proof.LibKeepdims
import proofs.«420514_j49864570307212_3_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.AttnBlock

open Cert.KernelIdeal Cert.KernelIdeal.Gen Idealize.ShloMosaic Idealize.ShloMosaic.ValueIdx

/-! ## The block's quantities, by coordinates -/

/-- The scaled inner product of row `r` of the query block with column `t` of the transposed keys. -/
def blkLogit (x0 : FVec Ideal S1x1024x64 .bf16) (x1 : FVec Ideal S1x64x4096 .bf16) (r : Fin 1024) (t : Fin 4096) : EReal :=
  (∑ d : Fin 64, x0 (ix3 (0 : Fin 1) r d) * x1 (ix3 (0 : Fin 1) d t)) * Cert.Attn.scale

/-- The largest logit of row `r`, folded from −∞. -/
def blkMax (x0 : FVec Ideal S1x1024x64 .bf16) (x1 : FVec Ideal S1x64x4096 .bf16) (r : Fin 1024) : EReal :=
  (Finset.univ : Finset (Fin 4096)).fold max Cert.Attn.negInf (fun t => blkLogit x0 x1 r t)

/-- The unnormalised weight of key position `t` for row `r`. -/
def blkWeight (x0 : FVec Ideal S1x1024x64 .bf16) (x1 : FVec Ideal S1x64x4096 .bf16) (r : Fin 1024) (t : Fin 4096) : EReal :=
  Ideal.exp (blkLogit x0 x1 r t - blkMax x0 x1 r)

/-! ## The three steps of the stored block -/

/-- The logits of the block: the product of the query block with the transposed keys, scaled. -/
def lgVec (x0 : FVec Ideal S1x1024x64 .bf16) (x1 : FVec Ideal S1x64x4096 .bf16) : FVec Ideal S1024x4096 .f32 :=
  mulf
    (matmul dot_S1024x64_S64x4096_S1024x4096_1_0_0_1_n_n none (shapeCast S1024x64 x0 shapeCasts_S1x1024x64_S1024x64)
      (shapeCast S64x4096 x1 shapeCasts_S1x64x4096_S64x4096) (constant S1024x4096 .f32 0x00000000#32))
    (broadcast S1024x4096 (Scalar.ofBits .f32 0x3E3504F3#32))

/-- The weights of a block of logits: each entry less its row's maximum, exponentiated. -/
def wVec (lg : FVec Ideal S1024x4096 .f32) : FVec Ideal S1024x4096 .f32 :=
  exp (subf lg
    (broadcastTo S1024x4096
      (shapeCast S1024x1 (multiReduction .maximumf [1] S1024 lg 0xFF800000#32 reduces_S1024x4096_S1024 (.inl rfl) rfl)
        shapeCasts_S1024_S1024x1)
      broadcasts_S1024x1_S1024x4096))

/-- The stored block from the weights and the values: the weighted sum of the values over the row sum of the weights. -/
def outVec (w : FVec Ideal S1024x4096 .f32) (x2 : FVec Ideal S1x4096x64 .f32) : FVec Ideal S1x1024x64 .f32 :=
  shapeCast S1x1024x64
    (divf
      (matmul dot_S1024x4096_S4096x64_S1024x64_1_0_0_1_n_n none (truncf .bf16 w bitsLt_bf16_f32)
        (truncf .bf16 (shapeCast S4096x64 x2 shapeCasts_S1x4096x64_S4096x64) bitsLt_bf16_f32)
        (constant S1024x64 .f32 0x00000000#32))
      (broadcastTo S1024x64
        (shapeCast S1024x1 (multiReduction .add [1] S1024 w 0x00000000#32 reduces_S1024x4096_S1024 (.inl rfl) rfl)
          shapeCasts_S1024_S1024x1)
        broadcasts_S1024x1_S1024x64))
    shapeCasts_S1024x64_S1x1024x64

/-- The body's stored value is those three steps composed. -/
theorem pay_eq (x0 : FVec Ideal S1x1024x64 .bf16) (x1 : FVec Ideal S1x64x4096 .bf16) (x2 : FVec Ideal S1x4096x64 .f32) :
    k1_pay1 (F := Ideal) x0 x1 x2 = outVec (wVec (lgVec x0 x1)) x2 := rfl

/-! ## Small readings -/

/-- The exponential of a block at an index is the exponential of the entry. -/
theorem exp_apply {s : Shape} {φ : FTy} (a : FVec Ideal s φ) (i : s.Idx) : exp a i = Ideal.exp (a i) := rfl

/-- The first product's dimension record is the plain 1024 × 64 by 64 × 4096 one. -/
theorem dotQK_eq : dot_S1024x64_S64x4096_S1024x4096_1_0_0_1_n_n = DotDims.plain 1024 64 4096 := rfl

/-- The second product's dimension record is the plain 1024 × 4096 by 4096 × 64 one. -/
theorem dotWV_eq : dot_S1024x4096_S4096x64_S1024x64_1_0_0_1_n_n = DotDims.plain 1024 4096 64 := rfl

/-- Over row `r` of a 1024 × 4096 block, the index with column `k` inserted is (r, k). -/
theorem lift_row (h : S1024x4096.Reduces [1] S1024) (r : Fin 1024) (k : Fin 4096) : h.lift (ix1 r) k = ix2 r k :=
  funext fun c => Fin.ext (by
    match c with
    | ⟨0, _⟩ => rfl
    | ⟨1, _⟩ => rfl)

/-- A row's maximum: the reduction over the columns, at row `r`, is the fold of `max` from −∞ over that row. -/
theorem rowMax_apply (v : FVec Ideal S1024x4096 .f32) (h : S1024x4096.Reduces [1] S1024) (hφ : FKind.Formats .f32)
    (hacc : (0xFF800000#32 : BitVec 32) = FKind.maximumf.neutral .f32 hφ) (r : Fin 1024) :
    multiReduction .maximumf [1] S1024 v 0xFF800000#32 h hφ hacc (ix1 r)
      = (Finset.univ : Finset (Fin 4096)).fold max Cert.Attn.negInf (fun t => v (ix2 r t)) := by
  refine (Ideal.multiReduction_maximumf_single v _ h hφ hacc (ix1 r)).trans ?_
  show (Finset.univ : Finset (Fin 4096)).fold max Cert.Attn.negInf (v ∘ h.lift (ix1 r)) = _
  exact congrArg (fun f => (Finset.univ : Finset (Fin 4096)).fold max Cert.Attn.negInf f)
    (funext fun k => congrArg v (lift_row h r k))

/-- A row's sum: the reduction over the columns, at row `r`, is the sum over that row. -/
theorem rowSum_apply (v : FVec Ideal S1024x4096 .f32) (h : S1024x4096.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ t : Fin 4096, v (ix2 r t) := by
  refine (Ideal.multiReduction_add_single v _ h hφ hacc (ix1 r)).trans ?_
  show ∑ k : Fin 4096, v (h.lift (ix1 r) k) = _
  exact Finset.sum_congr rfl fun k _ => congrArg v (lift_row h r k)

/-! ## Each step at an index -/

/-- The logits at (r, t). -/
theorem lgVec_apply (x0 : FVec Ideal S1x1024x64 .bf16) (x1 : FVec Ideal S1x64x4096 .bf16) (r : Fin 1024) (t : Fin 4096) :
    lgVec x0 x1 (ix2 r t) = blkLogit x0 x1 r t := by
  unfold lgVec blkLogit
  rw [dotQK_eq]
  refine (mulf_apply _ _ _).trans ?_
  refine congrArg (· * Cert.Attn.scale) ?_
  refine (Cert.LibMatmulPlain.matmul_plain_apply _ _ r t).trans ?_
  exact Finset.sum_congr rfl fun d _ => by
    rw [shapeCast_1ab_ab_apply, shapeCast_1ab_ab_apply]

/-- The weights at (r, t): the entry less the row's maximum, exponentiated. -/
theorem wVec_apply (lg : FVec Ideal S1024x4096 .f32) (r : Fin 1024) (t : Fin 4096) :
    wVec lg (ix2 r t)
      = Ideal.exp (lg (ix2 r t) - (Finset.univ : Finset (Fin 4096)).fold max Cert.Attn.negInf (fun t' => lg (ix2 r t'))) := by
  unfold wVec
  refine (exp_apply _ _).trans ?_
  refine congrArg Ideal.exp ?_
  refine (subf_apply _ _ _).trans ?_
  refine congrArg (lg (ix2 r t) - ·) ?_
  refine (Cert.LibKeepdims.broadcastTo_a1_ab_apply _ _ r t).trans ?_
  refine (Cert.LibKeepdims.shapeCast_a_a1_apply _ _ r (0 : Fin 1)).trans ?_
  exact rowMax_apply lg _ _ _ r

/-- The stored block at (0, r, e): the weighted sum of the values over the row sum of the weights. -/
theorem outVec_apply (w : FVec Ideal S1024x4096 .f32) (x2 : FVec Ideal S1x4096x64 .f32) (r : Fin 1024) (e : Fin 64) :
    outVec w x2 (ix3 (0 : Fin 1) r e)
      = Ideal.div (∑ t : Fin 4096, w (ix2 r t) * x2 (ix3 (0 : Fin 1) t e)) (∑ t : Fin 4096, w (ix2 r t)) := by
  unfold outVec
  rw [dotWV_eq]
  refine (shapeCast_ab_1ab_apply _ _ (0 : Fin 1) r e).trans ?_
  refine (divf_apply _ _ _).trans ?_
  refine congrArg₂ Ideal.div ?_ ?_
  · refine (Cert.LibMatmulPlain.matmul_plain_apply _ _ r e).trans ?_
    exact Finset.sum_congr rfl fun t _ =>
      congrArg (w (ix2 r t) * ·) (shapeCast_1ab_ab_apply x2 shapeCasts_S1x4096x64_S4096x64 t e)
  · refine (Cert.LibKeepdims.broadcastTo_a1_ab_apply _ _ r e).trans ?_
    refine (Cert.LibKeepdims.shapeCast_a_a1_apply _ _ r (0 : Fin 1)).trans ?_
    exact rowSum_apply w _ _ _ r

/-! ## The stored block at an index -/

/-- What the body stores, at (0, r, e): the weighted sum of the values over the sum of the weights, the weights being
    those of the block's own logits. -/
theorem pay_apply (x0 : FVec Ideal S1x1024x64 .bf16) (x1 : FVec Ideal S1x64x4096 .bf16) (x2 : FVec Ideal S1x4096x64 .f32)
    (r : Fin 1024) (e : Fin 64) :
    k1_pay1 (F := Ideal) x0 x1 x2 (ix3 (0 : Fin 1) r e)
      = Ideal.div (∑ t : Fin 4096, blkWeight x0 x1 r t * x2 (ix3 (0 : Fin 1) t e)) (∑ t : Fin 4096, blkWeight x0 x1 r t) := by
  rw [pay_eq, outVec_apply]
  have hw : ∀ t : Fin 4096, wVec (lgVec x0 x1) (ix2 r t) = blkWeight x0 x1 r t := fun t => by
    rw [wVec_apply]
    unfold blkWeight blkMax
    simp only [lgVec_apply]
  simp only [hw]

end Cert.KernelIdeal.AttnBlock

end
-- ==== Proof.AttnBlock.lean ====
/-
  The second region's output array is attention of the three head arrays it reads.

  The region runs over a 4 × 4 grid: point (b, qi) handles the 1024 query rows qi·1024 … qi·1024 + 1023 of batch b. At
  that point the body sees the block of those rows of the query head, the whole transposed key head of batch b and the
  whole value head of batch b, and stores one 1024 × 64 block. Entry (r, e) of the stored block is the quotient
  (∑ t, w[r, t] · v[t, e]) / (∑ t, w[r, t]) whose weights are those of row qi·1024 + r of batch b: exactly the
  late-normalised attention of the three arrays at (b, qi·1024 + r, e). So every point writes back its own block of ONE
  array function of the inputs; the sixteen blocks cover the output (row s of batch b lies in the block of point
  (b, s / 1024)); hence the output array after the region is that function everywhere.
-/
import proofs.«420514_j49864570307212_3_alg».proof.Proof.Gen.KernelIdeal.Frame
import proofs.«420514_j49864570307212_3_alg».proof.Proof.Spec
import proofs.«420514_j49864570307212_3_alg».proof.Proof.AttnBlockPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.AttnBlock

open Cert.KernelIdeal Cert.KernelIdeal.Gen Idealize.ShloMosaic Idealize.ShloMosaic.ValueIdx Idealize.ShloMosaic.TcCoe Idealize.SL.Sem
open Idealize.ShloMosaic.Pipeline (Dat)

/-! ## One stored entry against the whole arrays -/

/-- If the three blocks the body sees are the rows of three whole arrays — row `r` of the query block is row `s` of batch
    `b` of the first array, the key and value blocks are batch `b` of the other two — then entry (0, r, e) of what the body
    stores is late-normalised attention of the three arrays at (b, s, e). -/
theorem block_apply (A0 : S4x4096x64.Idx → EReal) (A1 : S4x64x4096.Idx → EReal) (A2 : S4x4096x64.Idx → EReal)
    (x0 : FVec Ideal S1x1024x64 .bf16) (x1 : FVec Ideal S1x64x4096 .bf16) (x2 : FVec Ideal S1x4096x64 .f32)
    (b : Fin 4) (s : Fin 4096) (r : Fin 1024)
    (h0 : ∀ d : Fin 64, x0 (ix3 (0 : Fin 1) r d) = A0 (ix3 b s d))
    (h1 : ∀ (d : Fin 64) (t : Fin 4096), x1 (ix3 (0 : Fin 1) d t) = A1 (ix3 b d t))
    (h2 : ∀ (t : Fin 4096) (e : Fin 64), x2 (ix3 (0 : Fin 1) t e) = A2 (ix3 b t e)) (e : Fin 64) :
    k1_pay1 (F := Ideal) x0 x1 x2 (ix3 (0 : Fin 1) r e)
      = Cert.Attn.attnLate (fun b s d => A0 (ix3 b s d)) (fun b t d => A1 (ix3 b d t)) (fun b t d => A2 (ix3 b t d)) b s e := by
  rw [pay_apply]
  unfold Cert.Attn.attnLate Cert.Attn.weight Cert.Attn.rowMax Cert.Attn.logit blkWeight blkMax blkLogit
  simp only [h0, h1, h2]

variable (V : (c : Dev nD) → (b : Ref sig .tc) → Buf (Elt Ideal) ((c : Thread nD τ).loc b))

/-! ## The output as one function of the three entry arrays -/

/-- Late-normalised attention of the region's three input arrays as it finds them, index by index. -/
def attnArr (c : Dev nD) : S4x4096x64.Idx → EReal := fun i =>
  Cert.Attn.attnLate (fun b s d => V c main_v3_0 (ix3 b s d)) (fun b t d => V c main_v3_1 (ix3 b d t))
    (fun b t d => V c main_v3_2 (ix3 b t d)) (i 0) (i 1) (i 2)

/-- A block's offsets inside its staging buffer are all zero. -/
theorem hz : (![0, 0, 0] : Fin 3 → Nat) = fun _ => 0 := funext fun a => by fin_cases a <;> rfl

/-- The block indices over the grid, decided over its sixteen points: the query window moves with the output window on
    the batch and row-block axes; the key and value windows move with it on the batch axis only and take the whole of the
    other two axes; the output's batch and row-block indices stay below 4 and its feature index is 0. -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 3 ∧ win1_3.index t (1 : Fin 3) ≤ 3 ∧ win1_3.index t (2 : Fin 3) = 0 :=
  (by decide +kernel : ∀ t : Fin grid1.N, _)

/-- Every (batch, row-block) pair is some point's output block index. -/
theorem idx_onto : ∀ (q0 : Fin 4) (q1 : Fin 4), ∃ t : Fin cfg1.N, win1_3.index t = ![q0.val, q1.val, 0] :=
  (by decide +kernel : ∀ (q0 : Fin 4) (q1 : Fin 4), ∃ t : Fin grid1.N, win1_3.index t = ![q0.val, q1.val, 0])

/-! ## What a point writes back -/

/-- What point `t` writes back to the output array is block `t` of `attnArr`. -/
theorem flushed_eq (c : Dev nD) (t : Fin cfg1.N) :
    (dat1 (F := Ideal) V c).flushed 3 t = ((cfg1.win 3).blk t).view.read (Elt Ideal) (attnArr V c) := by
  show (cfg1.win 3).cut (grid1.coords t) ((dat1 (F := Ideal) V c).after 3 t) = _
  rw [after1_3]
  unfold out1_3
  rw [View.canon_unit_zero hz]
  simp only [View.ld_unit_zero (S := S1x1024x64) hz, View.ld_unit_zero (S := S1x64x4096) hz,
    View.ld_unit_zero (S := S1x4096x64) hz]
  obtain ⟨e00, e01, e02, e10, e11, e12, e20, e21, e22, l0, l1, z2⟩ := idx_facts t
  funext j
  obtain ⟨u, r, e, rfl⟩ : ∃ (u : Fin 1) (r : Fin 1024) (e : Fin 64), j = ix3 u r e := ⟨j 0, j 1, j 2, eq_ix3 j⟩
  obtain rfl : u = 0 := Subsingleton.elim _ _
  show k1_pay1 (F := Ideal) (iblk1 V c 0 t) (iblk1 V c 1 t) (iblk1 V c 2 t) (ix3 (0 : Fin 1) r e)
      = attnArr V c (((cfg1.win 3).blk t).view.emb (ix3 (0 : Fin 1) r e))
  have hb : win1_3.index t (0 : Fin 3) < 4 := by omega
  have hs : win1_3.index t (1 : Fin 3) * 1024 + r.val < 4096 := by have := r.isLt; omega
  refine (block_apply (V c main_v3_0) (V c main_v3_1) (V c main_v3_2) (iblk1 V c 0 t) (iblk1 V c 1 t) (iblk1 V c 2 t)
    ⟨win1_3.index t (0 : Fin 3), hb⟩ ⟨win1_3.index t (1 : Fin 3) * 1024 + r.val, hs⟩ r ?_ ?_ ?_ e).trans ?_
  · intro d
    show V c main_v3_0 (((cfg1.win 0).blk t).view.emb (ix3 (0 : Fin 1) r d)) = _
    refine congrArg (V c main_v3_0) (funext fun a => Fin.ext ?_)
    match a with
    | ⟨0, _⟩ => show win1_0.index t (0 : Fin 3) * 1 + 1 * 0 = win1_3.index t (0 : Fin 3); omega
    | ⟨1, _⟩ => show win1_0.index t (1 : Fin 3) * 1024 + 1 * r.val = win1_3.index t (1 : Fin 3) * 1024 + r.val; omega
    | ⟨2, _⟩ => show win1_0.index t (2 : Fin 3) * 64 + 1 * d.val = d.val; omega
  · intro d k
    show V c main_v3_1 (((cfg1.win 1).blk t).view.emb (ix3 (0 : Fin 1) d k)) = _
    refine congrArg (V c main_v3_1) (funext fun a => Fin.ext ?_)
    match a with
    | ⟨0, _⟩ => show win1_1.index t (0 : Fin 3) * 1 + 1 * 0 = win1_3.index t (0 : Fin 3); omega
    | ⟨1, _⟩ => show win1_1.index t (1 : Fin 3) * 64 + 1 * d.val = d.val; omega
    | ⟨2, _⟩ => show win1_1.index t (2 : Fin 3) * 4096 + 1 * k.val = k.val; omega
  · intro k d
    show V c main_v3_2 (((cfg1.win 2).blk t).view.emb (ix3 (0 : Fin 1) k d)) = _
    refine congrArg (V c main_v3_2) (funext fun a => Fin.ext ?_)
    match a with
    | ⟨0, _⟩ => show win1_2.index t (0 : Fin 3) * 1 + 1 * 0 = win1_3.index t (0 : Fin 3); omega
    | ⟨1, _⟩ => show win1_2.index t (1 : Fin 3) * 4096 + 1 * k.val = k.val; omega
    | ⟨2, _⟩ => show win1_2.index t (2 : Fin 3) * 64 + 1 * d.val = d.val; omega
  · have hemb : (((cfg1.win 3).blk t).view.emb (ix3 (0 : Fin 1) r e) : S4x4096x64.Idx)
        = ix3 (⟨win1_3.index t (0 : Fin 3), hb⟩ : Fin 4) (⟨win1_3.index t (1 : Fin 3) * 1024 + r.val, hs⟩ : Fin 4096) e :=
      funext fun a => Fin.ext (by
        match a with
        | ⟨0, _⟩ => show win1_3.index t (0 : Fin 3) * 1 + 1 * 0 = win1_3.index t (0 : Fin 3); omega
        | ⟨1, _⟩ => show win1_3.index t (1 : Fin 3) * 1024 + 1 * r.val = win1_3.index t (1 : Fin 3) * 1024 + r.val; omega
        | ⟨2, _⟩ => show win1_3.index t (2 : Fin 3) * 64 + 1 * e.val = e.val; omega)
    exact (congrArg (attnArr V c) hemb).symm

/-! ## The blocks cover the output -/

/-- An index of the output array is in point `t`'s block iff each coordinate is in the block's range on its axis. -/
theorem mem_blk (t : Fin cfg1.N) (i : S4x4096x64.Idx) :
    i ∈ ((cfg1.win 3).blk t).view.set ↔ ∀ a : Fin 3, win1_3.index t a * S1x1024x64.size a ≤ (i a).val
      ∧ (i a).val < win1_3.index t a * S1x1024x64.size a + S1x1024x64.size a := by
  show i ∈ ((View.whole main_v4).slice (win1_3.rect t)).set ↔ _
  rw [View.set_slice_whole, Rect.mem_set_unit]
  exact Iff.rfl

/-- Every index of the output array lies in some point's block: (b, s, d) in that of the point whose block index is
    (b, s / 1024, 0). -/
theorem cover (i : S4x4096x64.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 64 := (i 2).isLt
  obtain ⟨t, ht⟩ := idx_onto ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, flush1_3 t, ?_⟩
  rw [mem_blk]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 64 ≤ (i 2).val ∧ (i 2).val < win1_3.index t (2 : Fin 3) * 64 + 64
    omega

/-! ## The output array after the region -/

/-- After the region the output array is `attnArr` of the entry arrays, everywhere. -/
theorem arr_eq (c : Dev nD) : (dat1 (F := Ideal) V c).arrAt 3 cfg1.N = attnArr V c :=
  (dat1 (F := Ideal) V c).arrAt_eq_of_cover 3 (attnArr V c) (fun t _ => flushed_eq V c t) cover

theorem attended (c : Dev nD) (b : Fin 4) (s : Fin 4096) (d : Fin 64) :
    (dat1 (F := Ideal) V c).arrAt 3 cfg1.N (ix3 b s d)
      = Cert.Attn.attnLate (fun b s d => V c main_v3_0 (ix3 b s d)) (fun b t d => V c main_v3_1 (ix3 b d t))
          (fun b t d => V c main_v3_2 (ix3 b t d)) b s d := by
  rw [arr_eq]
  rfl

end Cert.KernelIdeal.AttnBlock

end
-- ==== Proof.KernelValue.lean ====
/-
  What the kernel's program leaves in its result buffer, as one function of the launch arrays.

  @main is three bias reshapes ([64] to [1, 64]), the projection region and the attention region. Reading the
  boundaries' contents backwards: the result buffer ends at what the attention region's write-backs leave, which is
  `attnLate` of that region's three entry arrays; those are the projection region's three outputs, each a linear head
  `proj` of the projection region's entry arrays (the key head stored transposed, so it is read at (b, d, t));
  and at the projection region's entry the activations and weights are still the launch arrays, no host operation
  writing them, while each reshaped bias at (0, e) is the launch bias at e. Composed: the result at (b, s, d) is
  `attnLate` of the three heads `proj k Wq bq`, `proj q Wk bk`, `proj v Wv bv` of the launch arrays.
-/
import proofs.«420514_j49864570307212_3_alg».proof.Proof.Gen.KernelIdeal.Frame
import proofs.«420514_j49864570307212_3_alg».proof.Proof.Spec
import proofs.«420514_j49864570307212_3_alg».proof.Proof.Heads
import proofs.«420514_j49864570307212_3_alg».proof.Proof.AttnBlock
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.KernelValue

open Cert.KernelIdeal Cert.KernelIdeal.Gen Idealize.ShloMosaic Idealize.ShloMosaic.ValueIdx Idealize.ShloMosaic.TcCoe Idealize.SL.Sem
open Idealize.ShloMosaic.StableHlo

variable (m : (ℓ : Loc nD τ sig) → Buf (Elt Ideal) ℓ) (ρ : Dev nD → PrngReg)

/-! ## The projection region's entry contents are the launch arrays -/

theorem entry_arg0 (c : Dev nD) : V1 m ρ c main_arg0 = m ((c : Thread nD τ).loc main_arg0) := by
  show StableHlo.after hostOps0 (W0 m ρ c) (Proc.devRef .tc main_arg0) = _
  after_results
theorem entry_arg1 (c : Dev nD) : V1 m ρ c main_arg1 = m ((c : Thread nD τ).loc main_arg1) := by
  show StableHlo.after hostOps0 (W0 m ρ c) (Proc.devRef .tc main_arg1) = _
  after_results
theorem entry_arg2 (c : Dev nD) : V1 m ρ c main_arg2 = m ((c : Thread nD τ).loc main_arg2) := by
  show StableHlo.after hostOps0 (W0 m ρ c) (Proc.devRef .tc main_arg2) = _
  after_results
theorem entry_arg3 (c : Dev nD) : V1 m ρ c main_arg3 = m ((c : Thread nD τ).loc main_arg3) := by
  show StableHlo.after hostOps0 (W0 m ρ c) (Proc.devRef .tc main_arg3) = _
  after_results
theorem entry_arg5 (c : Dev nD) : V1 m ρ c main_arg5 = m ((c : Thread nD τ).loc main_arg5) := by
  show StableHlo.after hostOps0 (W0 m ρ c) (Proc.devRef .tc main_arg5) = _
  after_results
theorem entry_arg7 (c : Dev nD) : V1 m ρ c main_arg7 = m ((c : Thread nD τ).loc main_arg7) := by
  show StableHlo.after hostOps0 (W0 m ρ c) (Proc.devRef .tc main_arg7) = _
  after_results

/-- A bias reshaped from [64] to [1, 64], read at (0, e), is the bias at e. -/
theorem reshaped_bias (x : S64.Idx → EReal) (e : Fin 64) :
    shapeCast S1x64 x Facts₀.shapeCasts_S64_S1x64 (ix2 (0 : Fin 1) e) = x (ix1 e) := by
  refine (shapeCast_addUnit_apply (n := 1) ![64] x _ (ix2 (0 : Fin 1) e)).trans (congrArg x ?_)
  funext a
  match a with
  | ⟨0, _⟩ => rfl

theorem entry_bias_q (c : Dev nD) (e : Fin 64) :
    V1 m ρ c main_v0 (ix2 (0 : Fin 1) e) = m ((c : Thread nD τ).loc main_arg4) (ix1 e) := by
  have h : V1 m ρ c main_v0 = shapeCast S1x64 (m ((c : Thread nD τ).loc main_arg4)) Facts₀.shapeCasts_S64_S1x64 := by
    show StableHlo.after hostOps0 (W0 m ρ c) (Proc.devRef .tc main_v0) = _
    after_results
    rfl
  rw [h]; exact reshaped_bias _ e
theorem entry_bias_k (c : Dev nD) (e : Fin 64) :
    V1 m ρ c main_v1 (ix2 (0 : Fin 1) e) = m ((c : Thread nD τ).loc main_arg6) (ix1 e) := by
  have h : V1 m ρ c main_v1 = shapeCast S1x64 (m ((c : Thread nD τ).loc main_arg6)) Facts₀.shapeCasts_S64_S1x64 := by
    show StableHlo.after hostOps0 (W0 m ρ c) (Proc.devRef .tc main_v1) = _
    after_results
    rfl
  rw [h]; exact reshaped_bias _ e
theorem entry_bias_v (c : Dev nD) (e : Fin 64) :
    V1 m ρ c main_v2 (ix2 (0 : Fin 1) e) = m ((c : Thread nD τ).loc main_arg8) (ix1 e) := by
  have h : V1 m ρ c main_v2 = shapeCast S1x64 (m ((c : Thread nD τ).loc main_arg8)) Facts₀.shapeCasts_S64_S1x64 := by
    show StableHlo.after hostOps0 (W0 m ρ c) (Proc.devRef .tc main_v2) = _
    after_results
    rfl
  rw [h]; exact reshaped_bias _ e

/-! ## The three heads the attention region is entered with -/

/-- The query head: the linear head of the launch array `k` against `Wq`, plus `bq`. -/
abbrev headQ (c : Dev nD) : Cert.Attn.Head :=
  Cert.Attn.proj (m ((c : Thread nD τ).loc main_arg1)) (m ((c : Thread nD τ).loc main_arg3))
    (fun e => m ((c : Thread nD τ).loc main_arg4) (ix1 e))
/-- The key head: the linear head of the launch array `q` against `Wk`, plus `bk`. -/
abbrev headK (c : Dev nD) : Cert.Attn.Head :=
  Cert.Attn.proj (m ((c : Thread nD τ).loc main_arg0)) (m ((c : Thread nD τ).loc main_arg5))
    (fun e => m ((c : Thread nD τ).loc main_arg6) (ix1 e))
/-- The value head: the linear head of the launch array `v` against `Wv`, plus `bv`. -/
abbrev headV (c : Dev nD) : Cert.Attn.Head :=
  Cert.Attn.proj (m ((c : Thread nD τ).loc main_arg2)) (m ((c : Thread nD τ).loc main_arg7))
    (fun e => m ((c : Thread nD τ).loc main_arg8) (ix1 e))

theorem entry_headQ (c : Dev nD) (b : Fin 4) (s : Fin 4096) (d : Fin 64) :
    V2 m ρ c main_v3_0 (ix3 b s d) = headQ m c b s d := by
  have h : V2 m ρ c main_v3_0 = (dat0 (F := Ideal) (V1 m ρ) c).arrAt 9 cfg0.N := W2_arr m ρ c 9
  rw [h, Heads.queryHead (V1 m ρ) c b s d, entry_arg1, entry_arg3]
  exact congrArg (fun β => Cert.Attn.proj _ _ β b s d) (funext fun e => entry_bias_q m ρ c e)

theorem entry_headK (c : Dev nD) (b : Fin 4) (t : Fin 4096) (d : Fin 64) :
    V2 m ρ c main_v3_1 (ix3 b d t) = headK m c b t d := by
  have h : V2 m ρ c main_v3_1 = (dat0 (F := Ideal) (V1 m ρ) c).arrAt 10 cfg0.N := W2_arr m ρ c 10
  rw [h, Heads.keyHeadT (V1 m ρ) c b d t, entry_arg0, entry_arg5]
  exact congrArg (fun β => Cert.Attn.proj _ _ β b t d) (funext fun e => entry_bias_k m ρ c e)

theorem entry_headV (c : Dev nD) (b : Fin 4) (s : Fin 4096) (d : Fin 64) :
    V2 m ρ c main_v3_2 (ix3 b s d) = headV m c b s d := by
  have h : V2 m ρ c main_v3_2 = (dat0 (F := Ideal) (V1 m ρ) c).arrAt 11 cfg0.N := W2_arr m ρ c 11
  rw [h, Heads.valueHead (V1 m ρ) c b s d, entry_arg2, entry_arg7]
  exact congrArg (fun β => Cert.Attn.proj _ _ β b s d) (funext fun e => entry_bias_v m ρ c e)

/-! ## The result buffer -/

/-- The result buffer after the run, read at (b, s, d): attention, normalised after the weighted sum, of the three
    linear heads of the launch arrays. -/
theorem result_value (c : Dev nD) (b : Fin 4) (s : Fin 4096) (d : Fin 64) :
    W3 m ρ c (Proc.devRef .tc main_v4) (ix3 b s d)
      = Cert.Attn.attnLate (headQ m c) (headK m c) (headV m c) b s d := by
  have h : W3 m ρ c (Proc.devRef .tc main_v4) = (dat1 (F := Ideal) (V2 m ρ) c).arrAt 3 cfg1.N := W3_arr m ρ c 3
  rw [h, AttnBlock.attended (V2 m ρ) c b s d]
  have hq : (fun b s d => V2 m ρ c main_v3_0 (ix3 b s d)) = headQ m c :=
    funext fun b => funext fun s => funext fun d => entry_headQ m ρ c b s d
  have hk : (fun b t d => V2 m ρ c main_v3_1 (ix3 b d t)) = headK m c :=
    funext fun b => funext fun t => funext fun d => entry_headK m ρ c b t d
  have hv : (fun b t d => V2 m ρ c main_v3_2 (ix3 b t d)) = headV m c :=
    funext fun b => funext fun t => funext fun d => entry_headV m ρ c b t d
  rw [hq, hk, hv]

end Cert.KernelIdeal.KernelValue

end
-- ==== Proof.lean ====
/-
  Single-head attention over projected heads: the kernel's two-stage program against plain jnp.

  Both programs build three linear heads from the inputs — queries from `k` against `Wq`, keys from `q` against
  `Wk` (the two activations are exchanged in both programs alike), values from `v` against `Wv`, each plus its bias —,
  form for every query row the logits against all 4096 key rows, scaled by one and the same single-precision word,
  subtract the row's maximum, exponentiate, and combine the value rows with the resulting weights. They differ in one
  place: the kernel divides the weighted sum of the value rows by the sum of the weights once, at the end
  (`attnLate`), where the reference normalises every weight first (`attnEarly`). Changes of float format are the
  identity on the extended reals, so nothing else separates them.

  Under the precondition every input entry is a real number; then so are the heads and the logits, the weights are
  positive reals and their sum is a positive real, and dividing by it distributes over the finite weighted sum:
  the two arrangements are one function. That is the algebraic claim. The kernel's result is read off its run (the
  projection region's three outputs feed the attention region, whose output is the result buffer); the reference's is
  its straight-line run read one operation at a time. The idealisation rewrote no operation, so the preservation claim
  is empty, and the three frame claims are the runs with their results dropped.
-/
import proofs.«420514_j49864570307212_3_alg».proof.Defs
import proofs.«420514_j49864570307212_3_alg».proof.Proof.Gen.Kernel
import proofs.«420514_j49864570307212_3_alg».proof.Proof.Gen.Kernel.Frame
import proofs.«420514_j49864570307212_3_alg».proof.Proof.Gen.KernelIdeal
import proofs.«420514_j49864570307212_3_alg».proof.Proof.Gen.KernelIdeal.Frame
import proofs.«420514_j49864570307212_3_alg».proof.Proof.Gen.ReferenceIdeal
import proofs.«420514_j49864570307212_3_alg».proof.Proof.Gen.Pre_finite_inputs
import proofs.«420514_j49864570307212_3_alg».proof.Proof.Gen.ReferenceIdeal.Run
import proofs.«420514_j49864570307212_3_alg».proof.Proof.Gen.ReferenceIdeal.Read
import proofs.«420514_j49864570307212_3_alg».proof.Proof.Spec
import proofs.«420514_j49864570307212_3_alg».proof.Proof.Law
import proofs.«420514_j49864570307212_3_alg».proof.Proof.Finite
import proofs.«420514_j49864570307212_3_alg».proof.Proof.RefRead
import proofs.«420514_j49864570307212_3_alg».proof.Proof.KernelRun
import proofs.«420514_j49864570307212_3_alg».proof.Proof.KernelValue
import Idealize.ShloMosaic.Lib.ValueIdx
import Idealize.ShloMosaic.Adequacy
import Idealize.ShloMosaic.Init

noncomputable section

namespace Cert.Proof

open Idealize.ShloMosaic Idealize.ShloMosaic.ValueIdx Idealize.ShloMosaic.TcCoe Idealize.SL.Sem

/-! ## The frames and the preservation claim -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-! ## The algebraic claim -/

/-- What both programs leave in their result buffer: at (b, s, d), attention over the three linear heads of the launch
    arrays, in the arrangement that divides by the sum of the weights last. -/
def result (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v4) :=
  fun i => Cert.Attn.attnLate (Cert.KernelIdeal.KernelValue.headQ m c) (Cert.KernelIdeal.KernelValue.headK m c)
    (Cert.KernelIdeal.KernelValue.headV m c) (i 0) (i 1) (i 2)

theorem algebraic : Cert.algebraic_KernelIdeal_ReferenceIdeal := by
  intro m ρ m' ρ' hpre hagree
  refine ⟨result m, ?_, ?_⟩
  · -- the kernel: its run names the result buffer's contents, which are the attention of the three heads
    refine (θ_run Cert.KernelIdeal.defs _ _).mono (fun r h c => ⟨(h c).1.trans ?_, (h c).2⟩)
      (Cert.KernelIdeal.RunNamed.run_named (F := Ideal) m ρ)
    funext i
    obtain ⟨b, s, d, rfl⟩ : ∃ (b : Fin 4) (s : Fin 4096) (d : Fin 64), i = ix3 b s d := ⟨i 0, i 1, i 2, eq_ix3 i⟩
    exact Cert.KernelIdeal.KernelValue.result_value m ρ c b s d
  · -- the reference: its last stage is the other arrangement of the same heads; on real inputs the two agree
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v26_eq]
    obtain ⟨h0, h1, h2, h3, h4, h5, h6, h7, h8⟩ := hagree c
    rw [h0, h1, h2, h3, h4, h5, h6, h7, h8]
    funext i
    obtain ⟨b, s, d, rfl⟩ : ∃ (b : Fin 4) (s : Fin 4096) (d : Fin 64), i = ix3 b s d := ⟨i 0, i 1, i 2, eq_ix3 i⟩
    rw [Cert.ReferenceIdeal.RefRead.ref_value]
    obtain ⟨r0, r1, r2, r3, r4, r5, r6, r7, r8⟩ :=
      Cert.Pre_finite_inputs.Finite.real_of_finite_inputs _ _ _ _ _ _ _ _ _ (hpre c)
    exact (congrFun (congrFun (congrFun (Cert.Attn.attnLate_eq_attnEarly _ _ _
      (Cert.Attn.proj_isReal _ _ _ r1 r3 (fun e => r4 _))
      (Cert.Attn.proj_isReal _ _ _ r0 r5 (fun e => r6 _))
      (Cert.Attn.proj_isReal _ _ _ r2 r7 (fun e => r8 _))) b) s) d).symm

/-! ## The certificate -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
